-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S2x393216 : Shape := ⟨2, ![2, 393216]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S2x393216 : S_.BroadcastsInDim S2x393216 (![] : Fin 0 → Fin S2x393216.rank)
  reducesTo_S2x393216_S_d0_1 : S2x393216.ReducesTo [0, 1] S_

variable [Facts]

def fn_part2 {F : FTy → Type} [FloatOps F] (main_arg1 : IVec S2x393216 32) (main_v33 : IVec S_ 1) : IVec S_ 1 :=
  let main_c_12 : IVec S_ 32 := constantI S_ 32 0#32
  let main_v34 : IVec S2x393216 32 := broadcastInDim S2x393216 ![] bcast_S_S2x393216 main_c_12
  let main_v35 : IVec S2x393216 1 := cmpi .sge main_arg1 main_v34
  let main_c_13 : IVec S_ 32 := constantI S_ 32 12288#32
  let main_v36 : IVec S2x393216 32 := broadcastInDim S2x393216 ![] bcast_S_S2x393216 main_c_13
  let main_v37 : IVec S2x393216 1 := cmpi .slt main_arg1 main_v36
  let main_v38 : IVec S2x393216 1 := andi main_v35 main_v37
  let main_c_14 : IVec S_ 1 := constantI S_ 1 1#1
  let main_v39 : IVec S_ 1 := (fun x v => Host.reduce IntOp.andi x v reducesTo_S2x393216_S_d0_1 h_S_) main_v38 main_c_14
  let main_v40 : IVec S_ 1 := andi main_v33 main_v39
  main_v40

def fn_part1 {F : FTy → Type} [FloatOps F] (main_arg1 : IVec S2x393216 32) (main_arg5 : FVec F S256 .f32) (main_arg6 : FVec F S256x64 .f32) (main_arg7 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S12288x512 .f32) (main_arg1 : IVec S2x393216 32) (main_arg2 : FVec F S512x256 .f32) (main_arg3 : FVec F S256 .f32) (main_arg4 : FVec F S256x256 .f32) (main_arg5 : FVec F S256 .f32) (main_arg6 : FVec F S256x64 .f32) (main_arg7 : FVec F S64 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_v13 main_v16
-- ==== Kernel.lean ====
abbrev S12288x512 : Shape := ⟨2, ![12288, 512]⟩
abbrev S2x393216 : Shape := ⟨2, ![2, 393216]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S12288x64 : Shape := ⟨2, ![12288, 64]⟩
abbrev S12288x1 : Shape := ⟨2, ![12288, 1]⟩
abbrev S1024x512 : Shape := ⟨2, ![1024, 512]⟩
abbrev S1024x64 : Shape := ⟨2, ![1024, 64]⟩
abbrev S1024x1 : Shape := ⟨2, ![1024, 1]⟩
abbrev S1024x256 : Shape := ⟨2, ![1024, 256]⟩
abbrev S1x256 : Shape := ⟨2, ![1, 256]⟩
abbrev S1x64 : Shape := ⟨2, ![1, 64]⟩
abbrev S1024 : Shape := ⟨1, ![1024]⟩
abbrev S1x12288 : Shape := ⟨2, ![1, 12288]⟩
abbrev S12288x12288 : Shape := ⟨2, ![12288, 12288]⟩
abbrev S1x1024 : Shape := ⟨2, ![1, 1024]⟩
abbrev S1024x1024 : Shape := ⟨2, ![1024, 1024]⟩
abbrev S12288 : Shape := ⟨1, ![12288]⟩
abbrev S1x393216 : Shape := ⟨2, ![1, 393216]⟩
abbrev S393216 : Shape := ⟨1, ![393216]⟩
abbrev S_ : Shape := ⟨0, ![]⟩
abbrev S393216x1 : Shape := ⟨2, ![393216, 1]⟩
abbrev S1 : Shape := ⟨1, ![1]⟩
abbrev S1x1 : Shape := ⟨2, ![1, 1]⟩
abbrev S393216x64 : Shape := ⟨2, ![393216, 64]⟩

abbrev nBuf : Space → Nat
  | .hbm => 103
  | .vmem => 22
  | .smem => 0
  | _ => 0

abbrev bufTy : (tb : Table) → Fin (tcTables nBuf tb) → BufTy
  | .hbm, ⟨0, _⟩ => ⟨S12288x512, .f32⟩
  | .hbm, ⟨1, _⟩ => ⟨S2x393216, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S12288x64, .f32⟩
  | .hbm, ⟨9, _⟩ => ⟨S12288x1, .f32⟩
  | .hbm, ⟨10, _⟩ => ⟨S1x12288, .f32⟩
  | .hbm, ⟨11, _⟩ => ⟨S12288x12288, .f32⟩
  | .hbm, ⟨12, _⟩ => ⟨S12288, .f32⟩
  | .hbm, ⟨13, _⟩ => ⟨S1x393216, .i32⟩
  | .hbm, ⟨14, _⟩ => ⟨S393216, .i32⟩
  | .hbm, ⟨15, _⟩ => ⟨S1x393216, .i32⟩
  | .hbm, ⟨16, _⟩ => ⟨S393216, .i32⟩
  | .hbm, ⟨17, _⟩ => ⟨S_, .i32⟩
  | .hbm, ⟨18, _⟩ => ⟨S393216, .i32⟩
  | .hbm, ⟨19, _⟩ => ⟨S393216, .i1⟩
  | .hbm, ⟨20, _⟩ => ⟨S_, .i32⟩
  | .hbm, ⟨21, _⟩ => ⟨S393216, .i32⟩
  | .hbm, ⟨22, _⟩ => ⟨S393216, .i32⟩
  | .hbm, ⟨23, _⟩ => ⟨S393216, .i32⟩
  | .hbm, ⟨24, _⟩ => ⟨S393216x1, .i32⟩
  | .hbm, ⟨25, _⟩ => ⟨S1, .i32⟩
  | .hbm, ⟨26, _⟩ => ⟨S_, .i32⟩
  | .hbm, ⟨27, _⟩ => ⟨S393216x1, .i32⟩
  | .hbm, ⟨28, _⟩ => ⟨S393216x1, .i1⟩
  | .hbm, ⟨29, _⟩ => ⟨S1x1, .i32⟩
  | .hbm, ⟨30, _⟩ => ⟨S393216x1, .i32⟩
  | .hbm, ⟨31, _⟩ => ⟨S393216x1, .i1⟩
  | .hbm, ⟨32, _⟩ => ⟨S393216x1, .i1⟩
  | .hbm, ⟨33, _⟩ => ⟨S_, .i1⟩
  | .hbm, ⟨34, _⟩ => ⟨S393216, .i1⟩
  | .hbm, ⟨35, _⟩ => ⟨S393216x64, .f32⟩
  | .hbm, ⟨36, _⟩ => ⟨S393216x64, .i1⟩
  | .hbm, ⟨37, _⟩ => ⟨S_, .f32⟩
  | .hbm, ⟨38, _⟩ => ⟨S393216x64, .f32⟩
  | .hbm, ⟨39, _⟩ => ⟨S393216x64, .f32⟩
  | .hbm, ⟨40, _⟩ => ⟨S_, .i32⟩
  | .hbm, ⟨41, _⟩ => ⟨S393216, .i32⟩
  | .hbm, ⟨42, _⟩ => ⟨S393216, .i1⟩
  | .hbm, ⟨43, _⟩ => ⟨S_, .i32⟩
  | .hbm, ⟨44, _⟩ => ⟨S393216, .i32⟩
  | .hbm, ⟨45, _⟩ => ⟨S393216, .i32⟩
  | .hbm, ⟨46, _⟩ => ⟨S393216, .i32⟩
  | .hbm, ⟨47, _⟩ => ⟨S393216x1, .i32⟩
  | .hbm, ⟨48, _⟩ => ⟨S1, .i32⟩
  | .hbm, ⟨49, _⟩ => ⟨S_, .i32⟩
  | .hbm, ⟨50, _⟩ => ⟨S393216x1, .i32⟩
  | .hbm, ⟨51, _⟩ => ⟨S393216x1, .i1⟩
  | .hbm, ⟨52, _⟩ => ⟨S1x1, .i32⟩
  | .hbm, ⟨53, _⟩ => ⟨S393216x1, .i32⟩
  | .hbm, ⟨54, _⟩ => ⟨S393216x1, .i1⟩
  | .hbm, ⟨55, _⟩ => ⟨S393216x1, .i1⟩
  | .hbm, ⟨56, _⟩ => ⟨S_, .i1⟩
  | .hbm, ⟨57, _⟩ => ⟨S393216, .i1⟩
  | .hbm, ⟨58, _⟩ => ⟨S393216x64, .f32⟩
  | .hbm, ⟨59, _⟩ => ⟨S393216x64, .i1⟩
  | .hbm, ⟨60, _⟩ => ⟨S_, .f32⟩
  | .hbm, ⟨61, _⟩ => ⟨S393216x64, .f32⟩
  | .hbm, ⟨62, _⟩ => ⟨S393216x64, .f32⟩
  | .hbm, ⟨63, _⟩ => ⟨S393216x64, .f32⟩
  | .hbm, ⟨64, _⟩ => ⟨S_, .f32⟩
  | .hbm, ⟨65, _⟩ => ⟨S393216, .f32⟩
  | .hbm, ⟨66, _⟩ => ⟨S_, .i32⟩
  | .hbm, ⟨67, _⟩ => ⟨S393216, .i32⟩
  | .hbm, ⟨68, _⟩ => ⟨S393216, .i1⟩
  | .hbm, ⟨69, _⟩ => ⟨S_, .i32⟩
  | .hbm, ⟨70, _⟩ => ⟨S393216, .i32⟩
  | .hbm, ⟨71, _⟩ => ⟨S393216, .i32⟩
  | .hbm, ⟨72, _⟩ => ⟨S393216, .i32⟩
  | .hbm, ⟨73, _⟩ => ⟨S393216x1, .i32⟩
  | .hbm, ⟨74, _⟩ => ⟨S393216, .f32⟩
  | .hbm, ⟨75, _⟩ => ⟨S_, .i32⟩
  | .hbm, ⟨76, _⟩ => ⟨S393216, .i32⟩
  | .hbm, ⟨77, _⟩ => ⟨S393216, .i1⟩
  | .hbm, ⟨78, _⟩ => ⟨S_, .i32⟩
  | .hbm, ⟨79, _⟩ => ⟨S393216, .i32⟩
  | .hbm, ⟨80, _⟩ => ⟨S393216, .i32⟩
  | .hbm, ⟨81, _⟩ => ⟨S393216, .i32⟩
  | .hbm, ⟨82, _⟩ => ⟨S393216x1, .i32⟩
  | .hbm, ⟨83, _⟩ => ⟨S393216, .f32⟩
  | .hbm, ⟨84, _⟩ => ⟨S393216, .f32⟩
  | .hbm, ⟨85, _⟩ => ⟨S_, .f32⟩
  | .hbm, ⟨86, _⟩ => ⟨S393216, .f32⟩
  | .hbm, ⟨87, _⟩ => ⟨S393216, .f32⟩
  | .hbm, ⟨88, _⟩ => ⟨S393216, .f32⟩
  | .hbm, ⟨89, _⟩ => ⟨S393216, .f32⟩
  | .hbm, ⟨90, _⟩ => ⟨S393216, .f32⟩
  | .hbm, ⟨91, _⟩ => ⟨S_, .f32⟩
  | .hbm, ⟨92, _⟩ => ⟨S393216, .f32⟩
  | .hbm, ⟨93, _⟩ => ⟨S393216, .f32⟩
  | .hbm, ⟨94, _⟩ => ⟨S_, .f32⟩
  | .hbm, ⟨95, _⟩ => ⟨S393216, .f32⟩
  | .hbm, ⟨96, _⟩ => ⟨S393216, .f32⟩
  | .hbm, ⟨97, _⟩ => ⟨S393216, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x64, .f32⟩
  | .local _ .vmem, ⟨7, _⟩ => ⟨S64, .f32⟩
  | .local _ .vmem, ⟨8, _⟩ => ⟨S1024x64, .f32⟩
  | .local _ .vmem, ⟨9, _⟩ => ⟨S1024x64, .f32⟩
  | .local _ .vmem, ⟨10, _⟩ => ⟨S1024x1, .f32⟩
  | .local _ .vmem, ⟨11, _⟩ => ⟨S1024x1, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x1, .f32⟩
  | .local _ .vmem, ⟨17, _⟩ => ⟨S1024x1, .f32⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v8 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v9 : Ref sig .tc := ⟨.hbm, 62, rfl⟩
abbrev main_v10 : Ref sig .tc := ⟨.hbm, 63, rfl⟩
abbrev main_cst : Ref sig .tc := ⟨.hbm, 64, rfl⟩
abbrev main_v11 : Ref sig .tc := ⟨.hbm, 65, rfl⟩
abbrev main_c : Ref sig .tc := ⟨.hbm, 66, rfl⟩
abbrev main_v12 : Ref sig .tc := ⟨.hbm, 67, rfl⟩
abbrev main_v13 : Ref sig .tc := ⟨.hbm, 68, rfl⟩
abbrev main_c_0 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_c_1 : Ref sig .tc := ⟨.hbm, 75, rfl⟩
abbrev main_v19 : Ref sig .tc := ⟨.hbm, 76, rfl⟩
abbrev main_v20 : Ref sig .tc := ⟨.hbm, 77, rfl⟩
abbrev main_c_2 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_cst_3 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_cst_4 : Ref sig .tc := ⟨.hbm, 91, rfl⟩
abbrev main_v32 : Ref sig .tc := ⟨.hbm, 92, rfl⟩
abbrev main_v33 : Ref sig .tc := ⟨.hbm, 93, rfl⟩
abbrev main_cst_5 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_6 : Ref sig .tc := ⟨.hbm, 98, rfl⟩
abbrev main_v37 : Ref sig .tc := ⟨.hbm, 99, rfl⟩
abbrev main_cst_7 : Ref sig .tc := ⟨.hbm, 100, rfl⟩
abbrev main_v38 : Ref sig .tc := ⟨.hbm, 101, rfl⟩
abbrev main_v39 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![12, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S12288x1_S1x12288 : S12288x1.ShapeCasts S1x12288
  shapeCasts_S1024x64_S1024x64 : S1024x64.ShapeCasts S1024x64
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S12288x1_S12288 : S12288x1.ShapeCasts S12288
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S393216 : S_.BroadcastsInDim S393216 (![] : Fin 0 → Fin S393216.rank)
  bcast_S393216_S393216x1_0 : S393216.BroadcastsInDim S393216x1 (![0] : Fin 1 → Fin S393216x1.rank)
  bcast_S_S393216x1 : S_.BroadcastsInDim S393216x1 (![] : Fin 0 → Fin S393216x1.rank)
  bcast_S1_S1x1_1 : S1.BroadcastsInDim S1x1 (![1] : Fin 1 → Fin S1x1.rank)
  bcast_S1x1_S393216x1_0_1 : S1x1.BroadcastsInDim S393216x1 (![0, 1] : Fin 2 → Fin S393216x1.rank)
  reducesTo_S393216x1_S393216_d1 : S393216x1.ReducesTo [1] S393216
  h_S_ : 0 < S_.numel
  bcast_S393216_S393216x64_0 : S393216.BroadcastsInDim S393216x64 (![0] : Fin 1 → Fin S393216x64.rank)
  bcast_S_S393216x64 : S_.BroadcastsInDim S393216x64 (![] : Fin 0 → Fin S393216x64.rank)
  reducesTo_S393216x64_S393216_d1 : S393216x64.ReducesTo [1] S393216
  reducesTo_S393216_S_d0 : S393216.ReducesTo [0] S_
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x256_S256x64_S1024x64_1_0_0_1_n_n_wf : DotDims.WF S1024x256 S256x64 S1024x64 [1] [0] [0] [1] [] []
  dot_S1024x64_S1024x64_S1024x1024_1_1_0_0_n_n_wf : DotDims.WF S1024x64 S1024x64 S1024x1024 [1] [1] [0] [0] [] []
  gather_S12288x64_S393216x1_S393216x64_1_0_n_n_0_1_164_wf : GatherDims.WF S12288x64 S393216x1 S393216x64 [1] [0] [] [0] [] 1 ![1, 64]
  gather_S12288_S393216x1_S393216_n_0_n_n_0_1_1_wf : GatherDims.WF S12288 S393216x1 S393216 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S12288x512.size a
  hwx0_0 : ∀ i : grid0.Coords, EltTy.bits .f32 = 32 ∨ (Rect.block (s := S12288x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S12288x64.size a
  hwx0_7 : ∀ i : grid0.Coords, EltTy.bits .f32 = 32 ∨ (Rect.block (s := S12288x64) S1024x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S12288x1.size a
  hwx0_8 : ∀ i : grid0.Coords, EltTy.bits .f32 = 32 ∨ (Rect.block (s := S12288x1) S1024x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S12288x64.size a
  hwx1_0 : ∀ i : grid1.Coords, EltTy.bits .f32 = 32 ∨ (Rect.block (s := S12288x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S12288x64.size a
  hwx1_1 : ∀ i : grid1.Coords, EltTy.bits .f32 = 32 ∨ (Rect.block (s := S12288x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S12288x1.size a
  hwx1_2 : ∀ i : grid1.Coords, EltTy.bits .f32 = 32 ∨ (Rect.block (s := S12288x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x12288.size a
  hwx1_3 : ∀ i : grid1.Coords, EltTy.bits .f32 = 32 ∨ (Rect.block (s := S1x12288) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S12288x12288.size a
  hwx1_4 : ∀ i : grid1.Coords, EltTy.bits .f32 = 32 ∨ (Rect.block (s := S12288x12288) S1024x1024.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def gather_S12288_S393216x1_S393216_n_0_n_n_0_1_1 : GatherDims S12288 S393216x1 S393216 where
  offsetDims := []
  collapsedSliceDims := [0]
  operandBatchingDims := []
  startIndicesBatchingDims := []
  startIndexMap := [0]
  indexVectorDim := 1
  sliceSizes := ![1]
  wf := gather_S12288_S393216x1_S393216_n_0_n_n_0_1_1_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1024x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v0_0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S12288x512 : Shape := ⟨2, ![12288, 512]⟩
abbrev S2x393216 : Shape := ⟨2, ![2, 393216]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S12288x256 : Shape := ⟨2, ![12288, 256]⟩
abbrev S1x256 : Shape := ⟨2, ![1, 256]⟩
abbrev S_ : Shape := ⟨0, ![]⟩
abbrev S12288x64 : Shape := ⟨2, ![12288, 64]⟩
abbrev S1x64 : Shape := ⟨2, ![1, 64]⟩
abbrev S12288 : Shape := ⟨1, ![12288]⟩
abbrev S1x393216 : Shape := ⟨2, ![1, 393216]⟩
abbrev S393216 : Shape := ⟨1, ![393216]⟩
abbrev S393216x1 : Shape := ⟨2, ![393216, 1]⟩
abbrev S393216x64 : Shape := ⟨2, ![393216, 64]⟩
abbrev S64x12288 : Shape := ⟨2, ![64, 12288]⟩
abbrev S12288x12288 : Shape := ⟨2, ![12288, 12288]⟩
abbrev S12288x1 : Shape := ⟨2, ![12288, 1]⟩
abbrev S1x12288 : Shape := ⟨2, ![1, 12288]⟩

abbrev nBuf : Space → Nat
  | .hbm => 111
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S2x393216, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S12288x256, .f32⟩
  | .hbm, ⟨9, _⟩ => ⟨S1x256, .f32⟩
  | .hbm, ⟨10, _⟩ => ⟨S12288x256, .f32⟩
  | .hbm, ⟨11, _⟩ => ⟨S12288x256, .f32⟩
  | .hbm, ⟨12, _⟩ => ⟨S_, .f32⟩
  | .hbm, ⟨13, _⟩ => ⟨S12288x256, .f32⟩
  | .hbm, ⟨14, _⟩ => ⟨S12288x256, .f32⟩
  | .hbm, ⟨15, _⟩ => ⟨S12288x256, .f32⟩
  | .hbm, ⟨16, _⟩ => ⟨S1x256, .f32⟩
  | .hbm, ⟨17, _⟩ => ⟨S12288x256, .f32⟩
  | .hbm, ⟨18, _⟩ => ⟨S12288x256, .f32⟩
  | .hbm, ⟨19, _⟩ => ⟨S_, .f32⟩
  | .hbm, ⟨20, _⟩ => ⟨S12288x256, .f32⟩
  | .hbm, ⟨21, _⟩ => ⟨S12288x256, .f32⟩
  | .hbm, ⟨22, _⟩ => ⟨S12288x64, .f32⟩
  | .hbm, ⟨23, _⟩ => ⟨S1x64, .f32⟩
  | .hbm, ⟨24, _⟩ => ⟨S12288x64, .f32⟩
  | .hbm, ⟨25, _⟩ => ⟨S12288x64, .f32⟩
  | .hbm, ⟨26, _⟩ => ⟨S12288x64, .f32⟩
  | .hbm, ⟨27, _⟩ => ⟨S_, .f32⟩
  | .hbm, ⟨28, _⟩ => ⟨S12288, .f32⟩
  | .hbm, ⟨29, _⟩ => ⟨S12288, .f32⟩
  | .hbm, ⟨30, _⟩ => ⟨S1x393216, .i32⟩
  | .hbm, ⟨31, _⟩ => ⟨S393216, .i32⟩
  | .hbm, ⟨32, _⟩ => ⟨S1x393216, .i32⟩
  | .hbm, ⟨33, _⟩ => ⟨S393216, .i32⟩
  | .hbm, ⟨34, _⟩ => ⟨S_, .i32⟩
  | .hbm, ⟨35, _⟩ => ⟨S393216, .i32⟩
  | .hbm, ⟨36, _⟩ => ⟨S393216, .i1⟩
  | .hbm, ⟨37, _⟩ => ⟨S_, .i32⟩
  | .hbm, ⟨38, _⟩ => ⟨S393216, .i32⟩
  | .hbm, ⟨39, _⟩ => ⟨S393216, .i32⟩
  | .hbm, ⟨40, _⟩ => ⟨S393216, .i32⟩
  | .hbm, ⟨41, _⟩ => ⟨S393216x1, .i32⟩
  | .hbm, ⟨42, _⟩ => ⟨S393216x64, .f32⟩
  | .hbm, ⟨43, _⟩ => ⟨S_, .i32⟩
  | .hbm, ⟨44, _⟩ => ⟨S393216, .i32⟩
  | .hbm, ⟨45, _⟩ => ⟨S393216, .i1⟩
  | .hbm, ⟨46, _⟩ => ⟨S_, .i32⟩
  | .hbm, ⟨47, _⟩ => ⟨S393216, .i32⟩
  | .hbm, ⟨48, _⟩ => ⟨S393216, .i32⟩
  | .hbm, ⟨49, _⟩ => ⟨S393216, .i32⟩
  | .hbm, ⟨50, _⟩ => ⟨S393216x1, .i32⟩
  | .hbm, ⟨51, _⟩ => ⟨S393216x64, .f32⟩
  | .hbm, ⟨52, _⟩ => ⟨S393216x64, .f32⟩
  | .hbm, ⟨53, _⟩ => ⟨S_, .f32⟩
  | .hbm, ⟨54, _⟩ => ⟨S393216, .f32⟩
  | .hbm, ⟨55, _⟩ => ⟨S_, .i32⟩
  | .hbm, ⟨56, _⟩ => ⟨S393216, .i32⟩
  | .hbm, ⟨57, _⟩ => ⟨S393216, .i1⟩
  | .hbm, ⟨58, _⟩ => ⟨S_, .i32⟩
  | .hbm, ⟨59, _⟩ => ⟨S393216, .i32⟩
  | .hbm, ⟨60, _⟩ => ⟨S393216, .i32⟩
  | .hbm, ⟨61, _⟩ => ⟨S393216, .i32⟩
  | .hbm, ⟨62, _⟩ => ⟨S393216x1, .i32⟩
  | .hbm, ⟨63, _⟩ => ⟨S393216, .f32⟩
  | .hbm, ⟨64, _⟩ => ⟨S_, .i32⟩
  | .hbm, ⟨65, _⟩ => ⟨S393216, .i32⟩
  | .hbm, ⟨66, _⟩ => ⟨S393216, .i1⟩
  | .hbm, ⟨67, _⟩ => ⟨S_, .i32⟩
  | .hbm, ⟨68, _⟩ => ⟨S393216, .i32⟩
  | .hbm, ⟨69, _⟩ => ⟨S393216, .i32⟩
  | .hbm, ⟨70, _⟩ => ⟨S393216, .i32⟩
  | .hbm, ⟨71, _⟩ => ⟨S393216x1, .i32⟩
  | .hbm, ⟨72, _⟩ => ⟨S393216, .f32⟩
  | .hbm, ⟨73, _⟩ => ⟨S393216, .f32⟩
  | .hbm, ⟨74, _⟩ => ⟨S_, .f32⟩
  | .hbm, ⟨75, _⟩ => ⟨S393216, .f32⟩
  | .hbm, ⟨76, _⟩ => ⟨S393216, .f32⟩
  | .hbm, ⟨77, _⟩ => ⟨S393216, .f32⟩
  | .hbm, ⟨78, _⟩ => ⟨S393216, .f32⟩
  | .hbm, ⟨79, _⟩ => ⟨S393216, .f32⟩
  | .hbm, ⟨80, _⟩ => ⟨S_, .f32⟩
  | .hbm, ⟨81, _⟩ => ⟨S393216, .f32⟩
  | .hbm, ⟨82, _⟩ => ⟨S393216, .f32⟩
  | .hbm, ⟨83, _⟩ => ⟨S_, .f32⟩
  | .hbm, ⟨84, _⟩ => ⟨S393216, .f32⟩
  | .hbm, ⟨85, _⟩ => ⟨S393216, .f32⟩
  | .hbm, ⟨86, _⟩ => ⟨S393216, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S64x12288, .f32⟩
  | .hbm, ⟨93, _⟩ => ⟨S12288x12288, .f32⟩
  | .hbm, ⟨94, _⟩ => ⟨S12288x1, .f32⟩
  | .hbm, ⟨95, _⟩ => ⟨S1x12288, .f32⟩
  | .hbm, ⟨96, _⟩ => ⟨S12288x12288, .f32⟩
  | .hbm, ⟨97, _⟩ => ⟨S12288x12288, .f32⟩
  | .hbm, ⟨98, _⟩ => ⟨S12288x12288, .f32⟩
  | .hbm, ⟨99, _⟩ => ⟨S_, .f32⟩
  | .hbm, ⟨100, _⟩ => ⟨S12288x12288, .f32⟩
  | .hbm, ⟨101, _⟩ => ⟨S12288x12288, .f32⟩
  | .hbm, ⟨102, _⟩ => ⟨S12288x12288, .f32⟩
  | .hbm, ⟨103, _⟩ => ⟨S12288x12288, .f32⟩
  | .hbm, ⟨104, _⟩ => ⟨S12288x12288, .f32⟩
  | .hbm, ⟨105, _⟩ => ⟨S_, .f32⟩
  | .hbm, ⟨106, _⟩ => ⟨S12288x12288, .f32⟩
  | .hbm, ⟨107, _⟩ => ⟨S12288x12288, .f32⟩
  | .hbm, ⟨108, _⟩ => ⟨S_, .f32⟩
  | .hbm, ⟨109, _⟩ => ⟨S12288x12288, .f32⟩
  | .hbm, ⟨110, _⟩ => ⟨S12288x12288, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_v0 : Ref sig .tc := ⟨.hbm, 26, rfl⟩
abbrev main_call2_cst : Ref sig .tc := ⟨.hbm, 27, rfl⟩
abbrev main_call2_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_1 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_c_3 : Ref sig .tc := ⟨.hbm, 55, rfl⟩
abbrev main_v35 : Ref sig .tc := ⟨.hbm, 56, rfl⟩
abbrev main_v36 : Ref sig .tc := ⟨.hbm, 57, rfl⟩
abbrev main_c_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_12 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  bcast_S_S12288x256 : S_.BroadcastsInDim S12288x256 (![] : Fin 0 → Fin S12288x256.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  reducesTo_S12288x64_S12288_d1 : S12288x64.ReducesTo [1] S12288
  h_S_ : 0 < S_.numel
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S393216 : S_.BroadcastsInDim S393216 (![] : Fin 0 → Fin S393216.rank)
  bcast_S393216_S393216x1_0 : S393216.BroadcastsInDim S393216x1 (![0] : Fin 1 → Fin S393216x1.rank)
  reducesTo_S393216x64_S393216_d1 : S393216x64.ReducesTo [1] S393216
  reducesTo_S393216_S_d0 : S393216.ReducesTo [0] S_
  transposes_S12288x64_S64x12288_1_0 : S12288x64.Transposes [1, 0] S64x12288
  bcast_S12288_S12288x1_0 : S12288.BroadcastsInDim S12288x1 (![0] : Fin 1 → Fin S12288x1.rank)
  bcast_S12288_S1x12288_1 : S12288.BroadcastsInDim S1x12288 (![1] : Fin 1 → Fin S1x12288.rank)
  bcast_S12288x1_S12288x12288_0_1 : S12288x1.BroadcastsInDim S12288x12288 (![0, 1] : Fin 2 → Fin S12288x12288.rank)
  bcast_S1x12288_S12288x12288_0_1 : S1x12288.BroadcastsInDim S12288x12288 (![0, 1] : Fin 2 → Fin S12288x12288.rank)
  bcast_S_S12288x12288 : S_.BroadcastsInDim S12288x12288 (![] : Fin 0 → Fin S12288x12288.rank)
  dot_S12288x512_S512x256_S12288x256_1_0_0_1_n_n_wf : DotDims.WF S12288x512 S512x256 S12288x256 [1] [0] [0] [1] [] []
  dot_S12288x256_S256x256_S12288x256_1_0_0_1_n_n_wf : DotDims.WF S12288x256 S256x256 S12288x256 [1] [0] [0] [1] [] []
  dot_S12288x256_S256x64_S12288x64_1_0_0_1_n_n_wf : DotDims.WF S12288x256 S256x64 S12288x64 [1] [0] [0] [1] [] []
  gather_S12288x64_S393216x1_S393216x64_1_0_n_n_0_1_164_wf : GatherDims.WF S12288x64 S393216x1 S393216x64 [1] [0] [] [0] [] 1 ![1, 64]
  gather_S12288_S393216x1_S393216_n_0_n_n_0_1_1_wf : GatherDims.WF S12288 S393216x1 S393216 [] [0] [] [0] [] 1 ![1]
  dot_S12288x64_S64x12288_S12288x12288_1_0_0_1_n_n_wf : DotDims.WF S12288x64 S64x12288 S12288x12288 [1] [0] [0] [1] [] []

variable [Facts₀]

def dot_S12288x512_S512x256_S12288x256_1_0_0_1_n_n : DotDims S12288x512 S512x256 S12288x256 where
  lhsContracting := [1]
  rhsContracting := [0]
  lhsNonContracting := [0]
  rhsNonContracting := [1]
  lhsBatch := []
  rhsBatch := []
  wf := dot_S12288x512_S512x256_S12288x256_1_0_0_1_n_n_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def dot_S12288x256_S256x64_S12288x64_1_0_0_1_n_n : DotDims S12288x256 S256x64 S12288x64 where
  lhsContracting := [1]
  rhsContracting := [0]
  lhsNonContracting := [0]
  rhsNonContracting := [1]
  lhsBatch := []
  rhsBatch := []
  wf := dot_S12288x256_S256x64_S12288x64_1_0_0_1_n_n_wf
def gather_S12288x64_S393216x1_S393216x64_1_0_n_n_0_1_164 : GatherDims S12288x64 S393216x1 S393216x64 where
  offsetDims := [1]
  collapsedSliceDims := [0]
  operandBatchingDims := []
  startIndicesBatchingDims := []
  startIndexMap := [0]
  indexVectorDim := 1
  sliceSizes := ![1, 64]
  wf := gather_S12288x64_S393216x1_S393216x64_1_0_n_n_0_1_164_wf
def gather_S12288_S393216x1_S393216_n_0_n_n_0_1_1 : GatherDims S12288 S393216x1 S393216 where
  offsetDims := []
  collapsedSliceDims := [0]
  operandBatchingDims := []
  startIndicesBatchingDims := []
  startIndexMap := [0]
  indexVectorDim := 1
  sliceSizes := ![1]
  wf := gather_S12288_S393216x1_S393216_n_0_n_n_0_1_1_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.EncodeBody.lean ====
/-
  The encoder region (the first kernel launch): what its body leaves in its staging buffers at one grid point, and the
  proof data of its pipeline.

  The launch walks 12 row blocks of 1024 nodes.  At a point the body reads the block of features and the six whole
  weight and bias arrays, and writes the block of embeddings (three affine layers, the first two rectified) and the
  block of their row lengths.  Every access is a whole staging buffer, so what a buffer holds after the body is the
  body's stored value of the loaded blocks, and an input buffer is left as found.
-/
import proofs.«400617_j63574105915522_1_alg».proof.Proof.Gen.KernelIdeal.Launch
import proofs.«400617_j63574105915522_1_alg».proof.Proof.Gen.KernelIdeal.Skeleton
import proofs.«400617_j63574105915522_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Encode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each a whole staging buffer -/

abbrev rX : Rect S1024x512 := Rect.unit (s := S1024x512) ![0, 0] S1024x512.size inb_S1024x512_S1024x512_0_0
abbrev rW0 : Rect S512x256 := Rect.unit (s := S512x256) ![0, 0] S512x256.size inb_S512x256_S512x256_0_0
abbrev rB : Rect S256 := Rect.unit (s := S256) ![0] S256.size inb_S256_S256_0
abbrev rW1 : Rect S256x256 := Rect.unit (s := S256x256) ![0, 0] S256x256.size inb_S256x256_S256x256_0_0
abbrev rW2 : Rect S256x64 := Rect.unit (s := S256x64) ![0, 0] S256x64.size inb_S256x64_S256x64_0_0
abbrev rB2 : Rect S64 := Rect.unit (s := S64) ![0] S64.size inb_S64_S64_0
abbrev rZ : Rect S1024x64 := Rect.unit (s := S1024x64) ![0, 0] S1024x64.size inb_S1024x64_S1024x64_0_0
abbrev rN : Rect S1024x1 := Rect.unit (s := S1024x1) ![0, 0] S1024x1.size inb_S1024x1_S1024x1_0_0

/-- The embedding block the body stores, from the seven input buffers' contents. -/
def zBlock (x0 : Vec F S1024x512 .f32) (x1 : Vec F S512x256 .f32) (x2 : Vec F S256 .f32) (x3 : Vec F S256x256 .f32)
    (x4 : Vec F S256 .f32) (x5 : Vec F S256x64 .f32) (x6 : Vec F S64 .f32) : Vec F S1024x64 .f32 :=
  View.canon [⟨rZ, k0_pay1 (View.ld x0 rX) (View.ld x1 rW0) (View.ld x2 rB) (View.ld x3 rW1) (View.ld x4 rB) (View.ld x5 rW2) (View.ld x6 rB2)⟩]

/-- The block of row lengths the body stores. -/
def nBlock (x0 : Vec F S1024x512 .f32) (x1 : Vec F S512x256 .f32) (x2 : Vec F S256 .f32) (x3 : Vec F S256x256 .f32)
    (x4 : Vec F S256 .f32) (x5 : Vec F S256x64 .f32) (x6 : Vec F S64 .f32) : Vec F S1024x1 .f32 :=
  View.canon [⟨rN, k0_pay2 (View.ld x0 rX) (View.ld x1 rW0) (View.ld x2 rB) (View.ld x3 rW1) (View.ld x4 rB) (View.ld x5 rW2) (View.ld x6 rB2)⟩]

/-- Each output's one store is the whole buffer, so it covers it. -/
theorem coverZ (p0 : Vec F S1024x64 .f32) (y : S1024x64.Idx) :
    ∃ pc ∈ ([⟨rZ, p0⟩] : List (View.Piece (Elt F) S1024x64 .f32)), y ∈ pc.1.set :=
  View.cover_of_tiled [⟨rZ, p0⟩] S1024x64.size (by rfl) y

theorem coverN (p0 : Vec F S1024x1 .f32) (y : S1024x1.Idx) :
    ∃ pc ∈ ([⟨rN, p0⟩] : List (View.Piece (Elt F) S1024x1 .f32)), y ∈ pc.1.set :=
  View.cover_of_tiled [⟨rN, p0⟩] S1024x1.size (by rfl) y

/-! ## The body's triple -/

set_option maxHeartbeats 1000000 in
/-- The body on whole staging buffers, the inputs' at contents `x0 … x6` and the outputs' at anything, runs to the
    continuation with the inputs' as they were and the outputs' at the stored blocks. -/
theorem sound (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x64 .f32) (harg6 : arg6.IsWhole)
    (arg7 : Memref sig .tc .vmem S64 .f32) (harg7 : arg7.IsWhole) (arg8 : Memref sig .tc .vmem S1024x64 .f32) (harg8 : arg8.IsWhole)
    (arg9 : Memref sig .tc .vmem S1024x1 .f32) (harg9 : arg9.IsWhole)
    (x0 : Vec F S1024x512 .f32) (x1 : Vec F S512x256 .f32) (x2 : Vec F S256 .f32) (x3 : Vec F S256x256 .f32)
    (x4 : Vec F S256 .f32) (x5 : Vec F S256x64 .f32) (x6 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (zBlock x0 x1 x2 x3 x4 x5 x6)
            ∗ owns (c : Thread nD τ) arg9 fullShare (nBlock x0 x1 x2 x3 x4 x5 x6)) -∗ K ⟨⟩))
      ⊢ wp frame (wpE (defs₀ (F := F)) Variants.none c none) E
          (cc0__encode_kernel i arg1 harg1 arg2 harg2 arg3 harg3 arg4 harg4 arg5 harg5 arg6 harg6 arg7 harg7 arg8 harg8 arg9 harg9) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverZ _)
  iexists _; isplitr
  swap; · iexact H8
  ipureintro
  exact View.read_writes_eq_canon _ _ _ (coverN _)

/-! ## The pipeline's proof data -/

/-- The proof data of the encoder's pipeline on core `c`: the arrays as the region finds them; after the body at point
    `t` each input's buffer at its block, the two outputs' at the stored blocks of the input blocks; the invariant is the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => zBlock (blk V c 0 t) (blk V c 1 t) (blk V c 2 t) (blk V c 3 t) (blk V c 4 t) (blk V c 5 t) (blk V c 6 t)
    | ⟨8, _⟩ => nBlock (blk V c 0 t) (blk V c 1 t) (blk V c 2 t) (blk V c 3 t) (blk V c 4 t) (blk V c 5 t) (blk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = blk V c 5 t := by dsimp only [dat]
theorem after_6 (c : Dev nD) (t : Fin cfg0.N) : (dat V c).after 6 t = blk V c 6 t := by dsimp only [dat]
theorem after_7 (c : Dev nD) (t : Fin cfg0.N) : (dat V c).after 7 t = zBlock (blk V c 0 t) (blk V c 1 t) (blk V c 2 t) (blk V c 3 t) (blk V c 4 t) (blk V c 5 t) (blk V c 6 t) := by dsimp only [dat]
theorem after_8 (c : Dev nD) (t : Fin cfg0.N) : (dat V c).after 8 t = nBlock (blk V c 0 t) (blk V c 1 t) (blk V c 2 t) (blk V c 3 t) (blk V c 4 t) (blk V c 5 t) (blk V c 6 t) := by dsimp only [dat]

/-! Each input's current staging buffer holds its block at every point, fetched there or not: where it is not fetched
    the block index has not moved and the body left the buffer as found. -/
theorem before_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
theorem before_5 (c : Dev nD) (t : Fin cfg0.N) (d) : (dat V c).before 5 t d = blk V c 5 t :=
  ((dat V c).before_in_eq_fetched 5 rfl (fun _ => rfl) (fun _ _ _ => rfl)
    (fun t => by rw [after_5]; unfold Dat.blockOf blk; rw [A_eq]; try rfl) t d).trans
    (by unfold Dat.fetched Dat.blockOf blk; rw [A_eq]; try rfl)
theorem before_6 (c : Dev nD) (t : Fin cfg0.N) (d) : (dat V c).before 6 t d = blk V c 6 t :=
  ((dat V c).before_in_eq_fetched 6 rfl (fun _ => rfl) (fun _ _ _ => rfl)
    (fun t => by rw [after_6]; unfold Dat.blockOf blk; rw [A_eq]; try rfl) t d).trans
    (by unfold Dat.fetched Dat.blockOf blk; rw [A_eq]; try rfl)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t))

/-- The body at any point: the inputs' buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound c Set.univ _ _ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Encode

end
-- ==== Proof.PairsBody.lean ====
/-
  The all-pairs region (the second kernel launch): what its body leaves in its staging buffers at one grid point, and
  the proof data of its pipeline.

  The launch walks a 12 × 12 grid of 1024 × 1024 tiles of the score matrix.  At the point (i, j) the body reads row
  block i and row block j of the embeddings (two windows on ONE array), block i of the lengths as a column and block j
  of the lengths as a row, and writes the tile of scores.  Every access is a whole staging buffer.  Because two
  windows read the same array, each holds half of that array's share.
-/
import proofs.«400617_j63574105915522_1_alg».proof.Proof.Gen.KernelIdeal.Launch
import proofs.«400617_j63574105915522_1_alg».proof.Proof.Gen.KernelIdeal.Skeleton
import proofs.«400617_j63574105915522_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pairs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each a whole staging buffer -/

abbrev rZ : Rect S1024x64 := Rect.unit (s := S1024x64) ![0, 0] S1024x64.size inb_S1024x64_S1024x64_0_0
abbrev rCol : Rect S1024x1 := Rect.unit (s := S1024x1) ![0, 0] S1024x1.size inb_S1024x1_S1024x1_0_0
abbrev rRow : Rect S1x1024 := Rect.unit (s := S1x1024) ![0, 0] S1x1024.size inb_S1x1024_S1x1024_0_0
abbrev rTile : Rect S1024x1024 := Rect.unit (s := S1024x1024) ![0, 0] S1024x1024.size inb_S1024x1024_S1024x1024_0_0

/-- The tile of scores the body stores, from the four input buffers' contents. -/
def tile (x0 x1 : Vec F S1024x64 .f32) (x2 : Vec F S1024x1 .f32) (x3 : Vec F S1x1024 .f32) : Vec F S1024x1024 .f32 :=
  View.canon [⟨rTile, k1_pay1 (View.ld x0 rZ) (View.ld x1 rZ) (View.ld x2 rCol) (View.ld x3 rRow)⟩]

/-- The one store is the whole buffer, so it covers it. -/
theorem coverTile (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

/-! ## The body's triple -/

set_option maxHeartbeats 1000000 in
/-- The body on whole staging buffers, the inputs' at contents `x0 … x3` and the output's at anything, runs to the
    continuation with the inputs' as they were and the output's at the stored tile. -/
theorem sound (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1024 .f32) (harg6 : arg6.IsWhole)
    (x0 x1 : Vec F S1024x64 .f32) (x2 : Vec F S1024x1 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (tile x0 x1 x2 x3)) -∗ K ⟨⟩))
      ⊢ wp frame (wpE (defs₀ (F := F)) Variants.none c none) E
          (cc1__allpairs_kernel i arg2 harg2 arg3 harg3 arg4 harg4 arg5 harg5 arg6 harg6) K := by
  simp only [cc1__allpairs_kernel_eq_skeleton]; unfold cc1__allpairs_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverTile _)

/-! ## The pipeline's proof data -/

/-- The proof data of the all-pairs pipeline on core `c`: the arrays as the region finds them; after the body at point
    `t` each input's buffer at its block, the output's at the stored tile of the input blocks; the invariant is the
    scoped rest and the generator register, untouched; nothing owed.  The two windows on the embeddings array hold its
    left and right half share, the other inputs their arrays' full share. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => tile (blk V c 0 t) (blk V c 1 t) (blk V c 2 t) (blk V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = tile (blk V c 0 t) (blk V c 1 t) (blk V c 2 t) (blk V c 3 t) := by dsimp only [dat]

/-! Each input's current staging buffer holds its block at every point, fetched there or not: where it is not fetched
    the block index has not moved and the body left the buffer as found. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Pairs

end
-- ==== Proof.PairsShares.lean ====
/-
  The all-pairs launch takes the core's arrays and gives them back.

  The launch's pipeline has five windows on FOUR arrays: the two windows that read row blocks of the embeddings are
  both on the embeddings array.  Entering the pipeline, the core holds each of the four buffers whole at the full
  share; the pipeline wants one points-to per window.  The embeddings buffer's full share is the composite of its
  left and right halves, one for each of the two windows on it; the other three buffers go to their one window whole.
  Leaving the pipeline the halves are put together again; the three input buffers hold what they held, the output
  buffer what the write-backs left.
-/
import proofs.«400617_j63574105915522_1_alg».proof.Proof.PairsBody
import Idealize.ShloMosaic.Lib.Pipeline.Launch
import Idealize.ShloMosaic.Lib.Pipeline.Cells

set_option maxRecDepth 16384

noncomputable section

namespace Cert.KernelIdeal.PairsShares

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each window holds of its array -/

theorem share_0 (c : Dev nD) : (Cert.KernelIdeal.Pairs.dat V c).share 0 = fullShare.left := rfl
theorem share_1 (c : Dev nD) : (Cert.KernelIdeal.Pairs.dat V c).share 1 = fullShare.right := rfl
theorem share_2 (c : Dev nD) : (Cert.KernelIdeal.Pairs.dat V c).share 2 = fullShare := rfl
theorem share_3 (c : Dev nD) : (Cert.KernelIdeal.Pairs.dat V c).share 3 = fullShare := rfl
theorem share_4 (c : Dev nD) : (Cert.KernelIdeal.Pairs.dat V c).share 4 = fullShare := rfl

/-- The five windows' points-tos at contents `X`, each over its whole array at its share, spelt over the four buffers:
    the first two are on the embeddings buffer. -/
theorem arrays_eq (c : Dev nD) (X : (w : Fin cfg1.W) → Buf (Elt F) ((cfg1.win w).arr.view.loc (c : Thread nD τ))) :
    (Cert.KernelIdeal.Pairs.dat V c).arrays X
      = (iprop((((c : Thread nD τ).loc main_v0_0) ↦{fullShare.left} X 0) ∗ (((c : Thread nD τ).loc main_v0_0) ↦{fullShare.right} X 1)
          ∗ (((c : Thread nD τ).loc main_v0_1) ↦{fullShare} X 2) ∗ (((c : Thread nD τ).loc main_v1) ↦{fullShare} X 3)
          ∗ (((c : Thread nD τ).loc main_v2) ↦{fullShare} X 4)) : sProp 𝕄) := by
  unfold Dat.arrays
  -- windows 0 and 1 are on one array, so one rewrite makes both element sets the whole buffer
  rw [bigSep_W1, share_0, share_1, share_2, share_3, share_4,
    (arr_whole1 0).set_eq_univ, (arr_whole1 2).set_eq_univ, (arr_whole1 3).set_eq_univ, (arr_whole1 4).set_eq_univ]

/-- The distinct buffers behind the five windows' arrays are four; held whole at the full share, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0_0) ↦{fullShare} V' main_v0_0) ∗ (((c : Thread nD τ).loc main_v0_1) ↦{fullShare} V' main_v0_1)
          ∗ (((c : Thread nD τ).loc main_v1) ↦{fullShare} V' main_v1) ∗ (((c : Thread nD τ).loc main_v2) ↦{fullShare} V' main_v2)) := by
  unfold Pipeline.arrBufs
  exact bigSep_eq_bigSepL_of_eq [main_v0_0, main_v0_1, main_v1, main_v2] (by decide) (by decide) _

/-! ## Entry and exit -/

/-- ENTRY: the four buffers, each whole at the full share at the entry contents, are the pipeline's five arrays at
    their entry contents; the embeddings buffer's share is dealt in halves to the two windows on it. -/
theorem split (c : Dev nD) :
    (Pipeline.arrBufs (Ix := Unit) (Name := ℕ) (U := UR sig nD τ) (Lvl := ℕ) spec1 c (V c) : sProp 𝕄)
      ⊢ (Cert.KernelIdeal.Pairs.dat V c).arrays (fun w => (Cert.KernelIdeal.Pairs.dat V c).arrAt w 0) := by
  rw [arrays_eq, arrBufs_eq]
  -- at entry every array holds what the core's buffer behind it holds
  show _ ⊢ iprop((((c : Thread nD τ).loc main_v0_0) ↦{fullShare.left} V c main_v0_0) ∗ (((c : Thread nD τ).loc main_v0_0) ↦{fullShare.right} V c main_v0_0)
      ∗ (((c : Thread nD τ).loc main_v0_1) ↦{fullShare} V c main_v0_1) ∗ (((c : Thread nD τ).loc main_v1) ↦{fullShare} V c main_v1)
      ∗ (((c : Thread nD τ).loc main_v2) ↦{fullShare} V c main_v2))
  iintro ⟨Hz, Hn, Hr, Ho⟩
  -- the embeddings buffer's full share is its two halves
  ihave Hz' := (pointsTo_share (PosShare.mem_left_op_right fullShare)).1 $$ Hz
  icases Hz' with ⟨Hl, Hr'⟩
  isplitl [Hl]; · iexact Hl
  isplitl [Hr']; · iexact Hr'
  isplitl [Hn]; · iexact Hn
  isplitl [Hr]; · iexact Hr
  iexact Ho

/-- EXIT: the five arrays at their final contents are the four buffers whole at the full share, at any contents `V'`
    that keeps the three input buffers and has the output buffer at what the pipeline wrote. -/
theorem join (c : Dev nD) (V' : (b : Ref sig .tc) → Buf (Elt F) ((c : Thread nD τ).loc b))
    (h0 : V' main_v0_0 = V c main_v0_0) (h1 : V' main_v0_1 = V c main_v0_1) (h2 : V' main_v1 = V c main_v1)
    (h3 : V' main_v2 = (Cert.KernelIdeal.Pairs.dat V c).arrAt 4 cfg1.N) :
    (Cert.KernelIdeal.Pairs.dat V c).arrays (fun w => (Cert.KernelIdeal.Pairs.dat V c).arrAt w cfg1.N)
      ⊢ (Pipeline.arrBufs (Ix := Unit) (Name := ℕ) (U := UR sig nD τ) (Lvl := ℕ) spec1 c V' : sProp 𝕄) := by
  rw [arrays_eq, arrBufs_eq, h0, h1, h2, h3]
  -- an input's array is never written: at the end it holds what the core's buffer held at entry
  rw [(Cert.KernelIdeal.Pairs.dat V c).arrAt_in 0 rfl cfg1.N, (Cert.KernelIdeal.Pairs.dat V c).arrAt_in 1 rfl cfg1.N,
    (Cert.KernelIdeal.Pairs.dat V c).arrAt_in 2 rfl cfg1.N, (Cert.KernelIdeal.Pairs.dat V c).arrAt_in 3 rfl cfg1.N]
  show iprop((((c : Thread nD τ).loc main_v0_0) ↦{fullShare.left} V c main_v0_0) ∗ (((c : Thread nD τ).loc main_v0_0) ↦{fullShare.right} V c main_v0_0)
      ∗ (((c : Thread nD τ).loc main_v0_1) ↦{fullShare} V c main_v0_1) ∗ (((c : Thread nD τ).loc main_v1) ↦{fullShare} V c main_v1)
      ∗ (((c : Thread nD τ).loc main_v2) ↦{fullShare} (Cert.KernelIdeal.Pairs.dat V c).arrAt 4 cfg1.N)) ⊢ _
  iintro ⟨Hl, Hr', Hn, Hr, Ho⟩
  -- the two halves of the embeddings buffer's share make the full share again
  isplitl [Hl Hr']
  · iapply (pointsTo_share (PosShare.mem_left_op_right fullShare)).2
    isplitl [Hl]; · iexact Hl
    iexact Hr'
  isplitl [Hn]; · iexact Hn
  isplitl [Hr]; · iexact Hr
  iexact Ho

end Cert.KernelIdeal.PairsShares

end
-- ==== Proof.WholeRun.lean ====
/-
  The whole program as a run: the two kernel launches as regions of @main, entered from and left at the buffer
  contents the generated host stretches are stated over.

  What the launches leave: the encoder region leaves the embeddings and the lengths arrays at what its 12 points
  wrote; the all-pairs region leaves the score matrix at what its 144 points wrote.  Between the regions the host
  reshapes the lengths column into a row; after them it computes the edge loss.  Each region's record says how the
  pipeline's arrays are taken out of the core's buffers at entry and put back at exit; the second region reads the
  embeddings array through two windows, each holding half of that array's share.
-/
import proofs.«400617_j63574105915522_1_alg».proof.Proof.EncodeBody
import proofs.«400617_j63574105915522_1_alg».proof.Proof.PairsBody
import proofs.«400617_j63574105915522_1_alg».proof.Proof.PairsShares
import proofs.«400617_j63574105915522_1_alg».proof.Proof.Gen.KernelIdeal.Regions

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the regions leave -/

/-- The encoder region's entry contents: the launch memory. -/
abbrev Vin0 : (c : Dev nD) → (b : Ref sig .tc) → Buf (Elt F) ((c : Thread nD τ).loc b) := fun c b => V0 m c b

/-- The embeddings array after the encoder region: the fold of its 12 write-backs. -/
def zArr (c : Dev nD) : Buf (Elt F) ((c : Thread nD τ).loc main_v0_0) := (Encode.dat (Vin0 m) c).arrAt 7 cfg0.N
/-- The lengths array after the encoder region. -/
def nArr (c : Dev nD) : Buf (Elt F) ((c : Thread nD τ).loc main_v0_1) := (Encode.dat (Vin0 m) c).arrAt 8 cfg0.N

/-- The core's buffers after the encoder region, -/
def W1 (c : Dev nD) : Valuation τ sig (Elt F) :=
  Function.update (Function.update (V0 m c) main_v0_0 (zArr m c)) main_v0_1 (nArr m c)
/-- and after the host's reshape of the lengths: the all-pairs region's entry contents. -/
def W2 (c : Dev nD) : Valuation τ sig (Elt F) := StableHlo.after hostOps1 (W1 m c)
abbrev Vin1 : (c : Dev nD) → (b : Ref sig .tc) → Buf (Elt F) ((c : Thread nD τ).loc b) := fun c b => W2 m c b

/-- The score matrix after the all-pairs region: the fold of its 144 write-backs. -/
def sArr (c : Dev nD) : Buf (Elt F) ((c : Thread nD τ).loc main_v2) := (Pairs.dat (Vin1 m) c).arrAt 4 cfg1.N

/-- What the regions leave, as the generated valuations read it: the three arrays above at the three places the
    valuations look, anything elsewhere. -/
def outs : Outs (F := F) := fun _ r c =>
  if h : r = main_v0_0 then h ▸ zArr m c
  else if h : r = main_v0_1 then h ▸ nArr m c
  else if h : r = main_v2 then h ▸ sArr m c
  else m ((c : Thread nD τ).loc r)

theorem outs_z (J : ℕ) (c : Dev nD) : outs m J main_v0_0 c = zArr m c := by
  unfold outs; rw [dif_pos rfl]
theorem outs_n (J : ℕ) (c : Dev nD) : outs m J main_v0_1 c = nArr m c := by
  unfold outs; rw [dif_neg (by decide), dif_pos rfl]
theorem outs_s (J : ℕ) (c : Dev nD) : outs m J main_v2 c = sArr m c := by
  unfold outs; rw [dif_neg (by decide), dif_neg (by decide), dif_pos rfl]

theorem V1_eq (c : Dev nD) : V1 m (outs m) c = W1 m c := by
  show Function.update (Function.update (V0 m c) main_v0_0 (outs m 1 main_v0_0 c)) main_v0_1 (outs m 1 main_v0_1 c) = _
  rw [outs_z, outs_n]; rfl
theorem V2_eq (c : Dev nD) : V2 m (outs m) c = W2 m c := by
  show StableHlo.after hostOps1 (V1 m (outs m) c) = _
  rw [V1_eq]; rfl

/-- The all-pairs region finds the embeddings buffer at what the encoder region wrote (the reshape between them writes
    only the lengths' row), -/
theorem W2_z (c : Dev nD) : W2 m c main_v0_0 = zArr m c := by
  rw [← V2_eq, V2_of m (outs m) c main_v0_0 (by decide), V1_eq]
  show Function.update (Function.update (V0 m c) (Proc.devRef .tc main_v0_0) (zArr m c))
      (Proc.devRef .tc main_v0_1) (nArr m c) (Proc.devRef .tc main_v0_0) = _
  rw [Function.update_of_ne (StableHlo.devRef_ne_of_ne (by decide) : (Proc.devRef .tc main_v0_0 : DevRef τ sig) ≠ Proc.devRef .tc main_v0_1),
    Function.update_self]
/-- and the lengths' column likewise. -/
theorem W2_n (c : Dev nD) : W2 m c main_v0_1 = nArr m c := by
  rw [← V2_eq, V2_of m (outs m) c main_v0_1 (by decide), V1_eq]
  show Function.update (Function.update (V0 m c) (Proc.devRef .tc main_v0_0) (zArr m c))
      (Proc.devRef .tc main_v0_1) (nArr m c) (Proc.devRef .tc main_v0_1) = _
  rw [Function.update_self]

/-! ## The proof data of both pipelines, and what rides beside the buffers -/

/-- Every pipeline's proof data, each at its region's entry contents. -/
def pdats : (p : Fin 2) → (c : Dev nD) → Dat τ (Elt F) Unit ℕ (UR sig nD τ) ℕ (cfgs p) c
  | ⟨0, _⟩ => fun c => Encode.dat (Vin0 m) c
  | ⟨1, _⟩ => fun c => Pairs.dat (Vin1 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item of @main: the core's generator register at some state, and nothing owed. -/
abbrev rest (c : Dev nD) : sProp 𝕄 := iprop((∃ r, prngReg c r) ∗ ∃ W, owes (c : Thread nD τ) (0 : CellTallies nD τ sig Unit) W)

/-! ## The encoder region -/

/-- At the encoder region's exit each of its nine arrays holds what the generated valuation says: an argument its
    launch contents (an input window's array is never written), the two results what the write-backs left. -/
theorem exit0 (c : Dev nD) (w : Fin cfg0.W) :
    (pdats m 0 c).arrAt w cfg0.N = (fun b : Ref sig .tc => V1 m (outs m) c b) (Pipeline.arrRef spec0 w) := by
  show (Encode.dat (Vin0 m) c).arrAt w cfg0.N = V1 m (outs m) c (Pipeline.arrRef spec0 w)
  match w with
  | ⟨0, _⟩ => exact ((Encode.dat (Vin0 m) c).arrAt_in 0 rfl _).trans (V1_of m (outs m) c main_arg0 (by decide)).symm
  | ⟨1, _⟩ => exact ((Encode.dat (Vin0 m) c).arrAt_in 1 rfl _).trans (V1_of m (outs m) c main_arg2 (by decide)).symm
  | ⟨2, _⟩ => exact ((Encode.dat (Vin0 m) c).arrAt_in 2 rfl _).trans (V1_of m (outs m) c main_arg3 (by decide)).symm
  | ⟨3, _⟩ => exact ((Encode.dat (Vin0 m) c).arrAt_in 3 rfl _).trans (V1_of m (outs m) c main_arg4 (by decide)).symm
  | ⟨4, _⟩ => exact ((Encode.dat (Vin0 m) c).arrAt_in 4 rfl _).trans (V1_of m (outs m) c main_arg5 (by decide)).symm
  | ⟨5, _⟩ => exact ((Encode.dat (Vin0 m) c).arrAt_in 5 rfl _).trans (V1_of m (outs m) c main_arg6 (by decide)).symm
  | ⟨6, _⟩ => exact ((Encode.dat (Vin0 m) c).arrAt_in 6 rfl _).trans (V1_of m (outs m) c main_arg7 (by decide)).symm
  | ⟨7, _⟩ =>
    show zArr m c = V1 m (outs m) c main_v0_0
    rw [V1_eq]
    show zArr m c = Function.update (Function.update (V0 m c) (Proc.devRef .tc main_v0_0) (zArr m c))
      (Proc.devRef .tc main_v0_1) (nArr m c) (Proc.devRef .tc main_v0_0)
    rw [Function.update_of_ne (StableHlo.devRef_ne_of_ne (by decide) : (Proc.devRef .tc main_v0_0 : DevRef τ sig) ≠ Proc.devRef .tc main_v0_1),
      Function.update_self]
  | ⟨8, _⟩ =>
    show nArr m c = V1 m (outs m) c main_v0_1
    rw [V1_eq]
    show nArr m c = Function.update (Function.update (V0 m c) (Proc.devRef .tc main_v0_0) (zArr m c))
      (Proc.devRef .tc main_v0_1) (nArr m c) (Proc.devRef .tc main_v0_1)
    rw [Function.update_self]

/-- Off the region's arrays the exit contents are the entry contents. -/
theorem keep0 (c : Dev nD) : ∀ b : Ref sig .tc, b ∉ Finset.univ.image (Pipeline.arrRef spec0) →
    (fun b : Ref sig .tc => V1 m (outs m) c b) b = Vin0 m c b := fun b hb =>
  V1_of m (outs m) c b fun hmem => by
    rcases List.mem_cons.mp hmem with h | hmem
    · exact hb (Finset.mem_image.mpr ⟨7, Finset.mem_univ _, h.symm⟩)
    · rcases List.mem_cons.mp hmem with h | hmem
      · exact hb (Finset.mem_image.mpr ⟨8, Finset.mem_univ _, h.symm⟩)
      · exact absurd hmem (List.not_mem_nil)

set_option backward.isDefEq.respectTransparency.types false in
/-- The encoder region as an item of @main: entered from every unscoped buffer at the launch contents, left at the
    generated valuation after it.  Its nine arrays (distinct buffers) are split out of the unscoped buffers at entry
    and put back at exit; the generator register goes into the region's invariant and comes back; nothing is owed;
    the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Encode.body_obligation (Vin0 m) c).loose
  hwaits := Pipeline.hwaits_of_owed_zero _ _ _ _ L lv 0 fun _ _ => rfl
  pre c := iprop(StableHlo.held (c : Thread nD τ) (Pipeline.ucRefs τ sig) (V0 m c) ∗ rest c)
  post c := iprop(StableHlo.held (c : Thread nD τ) (Pipeline.ucRefs τ sig) (V1 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hbufs, Hreg, Howes⟩, -, -⟩
    ihave H := hsplit $$ Hbufs
    icases H with ⟨Harr, Hoff⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hoff
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b : Ref sig .tc => V1 m (outs m) c b) ((pdats m 0 c).arrAt · cfg0.N) (exit0 m c) (keep0 m c)
    rw [Pipeline.unscopedBufs_held] at hjoin
    iintro ⟨Harr, Howes, Hreg, Hoff⟩
    imodintro
    isplitl [Harr Hoff]
    · iapply hjoin; isplitl [Harr] <;> iassumption
    isplitl [Hreg]; · iexact Hreg
    unfold Pipeline.Dat.owesAt Pipeline.owesWithin
    icases Howes with ⟨%W, -, Howes⟩; iexists W; iexact Howes

/-! ## The all-pairs region -/

/-- The valuation after the all-pairs region keeps every buffer but the score matrix, -/
theorem V3_keep (c : Dev nD) (b : Ref sig .tc) (hb : b ≠ main_v2) : V3 m (outs m) c b = W2 m c b := by
  rw [← V2_eq]; exact V3_of m (outs m) c b (fun h => hb (List.mem_singleton.mp h))
/-- which it has at what the region's write-backs left. -/
theorem V3_s (c : Dev nD) : V3 m (outs m) c main_v2 = sArr m c := by
  show Function.update (V2 m (outs m) c) (Proc.devRef .tc main_v2) (outs m 3 main_v2 c) (Proc.devRef .tc main_v2) = _
  rw [Function.update_self, outs_s]

set_option backward.isDefEq.respectTransparency.types false in
/-- The all-pairs region as an item of @main: entered from the generated valuation before it, left at the one after
    it.  Its five arrays sit on FOUR buffers: at entry the embeddings buffer's share is dealt in halves to the two
    windows that read it, at exit the halves are joined again; the score matrix comes back at what was written. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Pairs.body_obligation (Vin1 m) c).loose
  hwaits := Pipeline.hwaits_of_owed_zero _ _ _ _ L lv 1 fun _ _ => rfl
  pre c := iprop(StableHlo.held (c : Thread nD τ) (Pipeline.ucRefs τ sig) (V2 m (outs m) c) ∗ rest c)
  post c := iprop(StableHlo.held (c : Thread nD τ) (Pipeline.ucRefs τ sig) (V3 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hcut := Pipeline.unscopedBufs_split₀ (Ix := Unit) (Name := ℕ) (U := UR sig nD τ) (Lvl := ℕ) cfgs 1 winFacts₀1.arr_unscoped c (Vin1 m c)
    rw [Pipeline.unscopedBufs_held] at hcut
    have hsplit : (StableHlo.held (c : Thread nD τ) (Pipeline.ucRefs τ sig) (V2 m (outs m) c) : sProp 𝕄)
        ⊢ iprop((pdats m 1 c).arrays ((pdats m 1 c).arrAt · 0)
            ∗ Pipeline.unscopedRest (Ix := Unit) (Name := ℕ) (U := UR sig nD τ) (Lvl := ℕ) spec1 c (Vin1 m c)) := by
      rw [V2_eq, hcut]
      exact sep_mono (PairsShares.split (Vin1 m) c) .rfl
    iintro ⟨⟨Hbufs, Hreg, Howes⟩, -, -⟩
    ihave H := hsplit $$ Hbufs
    icases H with ⟨Harr, Hoff⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hoff
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hcut := Pipeline.unscopedBufs_split₀ (Ix := Unit) (Name := ℕ) (U := UR sig nD τ) (Lvl := ℕ) cfgs 1 winFacts₀1.arr_unscoped c
      (fun b : Ref sig .tc => V3 m (outs m) c b)
    rw [Pipeline.unscopedBufs_held] at hcut
    have hjoin : iprop((pdats m 1 c).arrays ((pdats m 1 c).arrAt · cfg1.N)
          ∗ Pipeline.unscopedRest (Ix := Unit) (Name := ℕ) (U := UR sig nD τ) (Lvl := ℕ) spec1 c (Vin1 m c))
        ⊢ (StableHlo.held (c : Thread nD τ) (Pipeline.ucRefs τ sig) (V3 m (outs m) c) : sProp 𝕄) := by
      rw [hcut]
      refine sep_mono (PairsShares.join (Vin1 m) c (fun b : Ref sig .tc => V3 m (outs m) c b)
        (V3_keep m c main_v0_0 (by decide)) (V3_keep m c main_v0_1 (by decide)) (V3_keep m c main_v1 (by decide)) (V3_s m c)) (Entails.of_eq ?_)
      unfold Pipeline.unscopedRest
      exact bigSep_congr fun b hb => by
        beta_reduce
        rw [V3_keep m c b (fun h => (Finset.mem_sdiff.mp hb).2 (Finset.mem_image.mpr ⟨4, Finset.mem_univ _, h.symm⟩))]
    iintro ⟨Harr, Howes, Hreg, Hoff⟩
    imodintro
    isplitl [Harr Hoff]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.WholeRun

end
-- ==== Proof.Launch.lean ====
/-
  The launch: @main of the program, run as its seven items (region, host stretch, region, four host stretches), ends
  with every unscoped buffer at the last generated valuation.  From that one run follow the frame (the eight argument
  arrays end as launched: no item writes one) and, for a value claim, what the two result buffers hold.
-/
import proofs.«400617_j63574105915522_1_alg».proof.Proof.WholeRun

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the run's last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's items on every core: the two regions' records among the generated host stretches. -/
abbrev items (c : Dev nD) : List (Seg (pcfgs (F := F)) adm (pdats m) () defs₀ 𝒱₀ L lv) :=
  segs m (outs m) 𝒱₀ L lv (fun _ => rest) () (pdats m) (reg0 m) (reg1 m) c

/-- After the last host stretch: the buffers and the generator register on one side, nothing owed on the other. -/
theorem last_state (c : Dev nD) :
    (iprop(StableHlo.held (c : Thread nD τ) (Pipeline.ucRefs τ sig) (V7 m (outs m) c) ∗ rest c) : sProp 𝕄)
      ⊢ iprop((StableHlo.held (c : Thread nD τ) (Pipeline.ucRefs τ sig) (V7 m (outs m) c) ∗ ∃ r, prngReg c r)
          ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- Every weakly fair execution of @main from memory `m` with zero counters terminates, faults nowhere, and ends with
    every unscoped buffer of every core at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V7 m (outs m) c b) :=
  Pipeline.θ_run_regions_kit_dev (pcfgs (F := F)) adm (pdats m) () cellOf_inj emb₁ defs₀ 𝒱₀ L lv m ρ main (items m)
    (fun c Q => by
      rewrite [main_chain c, Seg.run_eq_chain,
        show (items m c).map Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3 ] from rfl]
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => iprop(StableHlo.held (c : Thread nD τ) (Pipeline.ucRefs τ sig) (V7 m (outs m) c) ∗ ∃ r, prngReg c r))
    (hch := fun c => ⟨.rfl, .rfl, .rfl, .rfl, .rfl, .rfl, .rfl, last_state m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V7 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V7 m (outs m) c) s')
      isplitl [Hh] <;> iassumption)
    (hQ := fun s h => h)

/-- THE FRAME: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c),
     (h c _ (mem_uc main_arg6 (by decide))).trans (V7_main_arg6 m (outs m) c),
     (h c _ (mem_uc main_arg7 (by decide))).trans (V7_main_arg7 m (outs m) c)⟩)
    (run_all m ρ)

end Cert.KernelIdeal.WholeRun

end
-- ==== Proof.LossChain.lean ====
/-
  The edge loss of the reference, taken out as one function.

  After the embedding array and the array of row lengths are made, the reference reads nothing else of the float
  arguments: the loss is a function of those two arrays and of the integer array of edges alone.  Each edge names two
  rows; a negative row number counts from the end, so 12288 is added to it.  The loss is minus the mean, over the
  393216 edges, of the logarithm of the logistic function of the two rows' inner product over the floored product of
  their lengths.  This file writes that function down with the same operations, in the same order, as the reference's
  own stages, so that the reference's last loss stage is this function of its embedding and length stages by
  unfolding the names alone.
-/
import proofs.«400617_j63574105915522_1_alg».proof.Proof.Gen.ReferenceIdeal.Read

noncomputable section

namespace Cert.ReferenceIdeal.LossChain

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

/-- The edges' first ends: row 0 of the edge array, as a flat array of 393216 row numbers. -/
def firstEnds (x1 : (⟨S2x393216, .i32⟩ : BufTy).Contents (Elt F)) : (⟨S393216, .i32⟩ : BufTy).Contents (Elt F) :=
  shapeCast _ (extractStridedSlice S1x393216 ![0, 0] (x1) slices_S2x393216_S1x393216_0_0) shapeCasts_S1x393216_S393216

/-- The edges' second ends: row 1 of the edge array, flat likewise. -/
def secondEnds (x1 : (⟨S2x393216, .i32⟩ : BufTy).Contents (Elt F)) : (⟨S393216, .i32⟩ : BufTy).Contents (Elt F) :=
  shapeCast _ (extractStridedSlice S1x393216 ![1, 0] (x1) slices_S2x393216_S1x393216_1_0) shapeCasts_S1x393216_S393216

/-- A flat array filled with one integer word. -/
def fillI (w : BitVec 32) : (⟨S393216, .i32⟩ : BufTy).Contents (Elt F) :=
  broadcastInDim S393216 ![] bcast_S_S393216 (constantI S_ 32 w : (⟨S_, .i32⟩ : BufTy).Contents (Elt F))

/-- A flat array filled with one single-precision word. -/
def fillF (w : BitVec 32) : (⟨S393216, .f32⟩ : BufTy).Contents (Elt F) :=
  broadcastInDim S393216 ![] bcast_S_S393216 (constant S_ .f32 w : (⟨S_, .f32⟩ : BufTy).Contents (Elt F))

/-- The zero a float sum starts from. -/
def zeroF : (⟨S_, .f32⟩ : BufTy).Contents (Elt F) := constant S_ .f32 0x00000000#32

/-- Row numbers made non-negative (a negative one has 12288 added), as a column of one-entry index vectors. -/
def wrapped (v : (⟨S393216, .i32⟩ : BufTy).Contents (Elt F)) : (⟨S393216x1, .i32⟩ : BufTy).Contents (Elt F) :=
  broadcastInDim S393216x1 ![0] bcast_S393216_S393216x1_0
    (select (cmpi .slt v (fillI (F := F) 0#32)) (addi v (fillI (F := F) 12288#32)) v)

/-- For each edge the embedding row of the given end. -/
def rowsAt (z : (⟨S12288x64, .f32⟩ : BufTy).Contents (Elt F)) (v : (⟨S393216, .i32⟩ : BufTy).Contents (Elt F)) :
    (⟨S393216x64, .f32⟩ : BufTy).Contents (Elt F) :=
  Host.gather gather_S12288x64_S393216x1_S393216x64_1_0_n_n_0_1_164 z (wrapped v)

/-- For each edge the row length of the given end. -/
def lensAt (nrm : (⟨S12288, .f32⟩ : BufTy).Contents (Elt F)) (v : (⟨S393216, .i32⟩ : BufTy).Contents (Elt F)) :
    (⟨S393216, .f32⟩ : BufTy).Contents (Elt F) :=
  Host.gather gather_S12288_S393216x1_S393216_n_0_n_n_0_1_1 nrm (wrapped v)

/-- For each edge the inner product of its two ends' embedding rows. -/
def edgeDots (z : (⟨S12288x64, .f32⟩ : BufTy).Contents (Elt F)) (x1 : (⟨S2x393216, .i32⟩ : BufTy).Contents (Elt F)) :
    (⟨S393216, .f32⟩ : BufTy).Contents (Elt F) :=
  Host.reduceAdd (mulf (rowsAt z (firstEnds x1)) (rowsAt z (secondEnds x1))) (zeroF (F := F))
    reducesTo_S393216x64_S393216_d1 h_S_

/-- For each edge the product of its two ends' row lengths, kept at or above the floor. -/
def edgeLens (nrm : (⟨S12288, .f32⟩ : BufTy).Contents (Elt F)) (x1 : (⟨S2x393216, .i32⟩ : BufTy).Contents (Elt F)) :
    (⟨S393216, .f32⟩ : BufTy).Contents (Elt F) :=
  maximumf (mulf (lensAt nrm (firstEnds x1)) (lensAt nrm (secondEnds x1))) (fillF (F := F) 0x322BCC77#32)

/-- The reference's operations %15 … %62 as one function of the embedding array, the lengths array and the integer
    argument: the edge loss. -/
def lossOf (z : (⟨S12288x64, .f32⟩ : BufTy).Contents (Elt F)) (nrm : (⟨S12288, .f32⟩ : BufTy).Contents (Elt F))
    (x1 : (⟨S2x393216, .i32⟩ : BufTy).Contents (Elt F)) : (⟨S_, .f32⟩ : BufTy).Contents (Elt F) :=
  Host.negf (Host.divf
    (Host.reduceAdd
      (Host.log (Host.divf (fillF (F := F) 0x3F800000#32)
        (addf (fillF (F := F) 0x3F800000#32)
          (Host.exp (Host.negf (Host.divf (edgeDots z x1) (edgeLens nrm x1)))))))
      (zeroF (F := F)) reducesTo_S393216_S_d0 h_S_)
    (constant S_ .f32 0x48C00000#32 : (⟨S_, .f32⟩ : BufTy).Contents (Elt F)))

/-- The reference's loss stage is `lossOf` of its embedding stage, its lengths stage and the integer argument: the
    two sides are the same nest of operations once every stage name is opened. -/
theorem loss_eq (x0 : (⟨S12288x512, .f32⟩ : BufTy).Contents (Elt F)) (x1 : (⟨S2x393216, .i32⟩ : BufTy).Contents (Elt F))
    (x2 : (⟨S512x256, .f32⟩ : BufTy).Contents (Elt F)) (x3 : (⟨S256, .f32⟩ : BufTy).Contents (Elt F))
    (x4 : (⟨S256x256, .f32⟩ : BufTy).Contents (Elt F)) (x5 : (⟨S256, .f32⟩ : BufTy).Contents (Elt F))
    (x6 : (⟨S256x64, .f32⟩ : BufTy).Contents (Elt F)) (x7 : (⟨S64, .f32⟩ : BufTy).Contents (Elt F)) :
    val_main_v62 (F := F) x0 x1 x2 x3 x4 x5 x6 x7 =
      lossOf (val_main_v13 (F := F) x0 x2 x3 x4 x5 x6 x7) (val_main_v14 (F := F) x0 x2 x3 x4 x5 x6 x7) x1 := by
  rfl

end Cert.ReferenceIdeal.LossChain

end
-- ==== Proof.IndexRange.lean ====
/-
  The edge-index range, read out of the precondition.

  The precondition is a conjunction whose last conjunct says that every entry e of the int32 [2, 393216]
  edge-index array satisfies 0 ≤ e and e < 12288 (both compares signed). This module turns "the
  precondition is all ones" into the arithmetic fact that every entry, read as an unsigned number, is
  below 12288; and it records how such a word answers three signed compares (against 0 from either side,
  and against the last row 12287).
-/
import proofs.«400617_j63574105915522_1_alg».proof.Pre_finite_inputs
import proofs.«400617_j63574105915522_1_alg».proof.Proof.Gen.Pre_finite_inputs
import Idealize.ShloMosaic.Lib.ReduceAll
import Idealize.ShloMosaic.Lib.StableHlo.Predicate
import Idealize.ShloMosaic.Lib.ValueIdx

namespace Cert.IndexRange

open Idealize.ShloMosaic

/-! ## One word -/

/-- A 32-bit word that is signed-nonnegative and signed-below 12288 is below 12288 as an unsigned number:
    its signed value is either its unsigned value (top bit clear) or that minus 2³² (top bit set, hence
    negative, which the first compare excludes). -/
theorem toNat_lt (w : BitVec 32) (h0 : IntOp.cmpi .sge w 0#32 = 1#1) (h1 : IntOp.cmpi .slt w 12288#32 = 1#1) :
    w.toNat < 12288 := by
  unfold IntOp.cmpi at h0 h1
  simp only [StableHlo.Predicate.ofBool_eq_one_iff, BitVec.sle, BitVec.slt, decide_eq_true_eq] at h0 h1
  -- h0 : 0 ≤ signed w,  h1 : signed w < 12288, once the two literals are evaluated
  have e0 : (0#32 : BitVec 32).toInt = 0 := by decide
  have e1 : (12288#32 : BitVec 32).toInt = 12288 := by decide
  rw [e0] at h0
  rw [e1] at h1
  rw [BitVec.toInt_eq_toNat_cond] at h0 h1
  have := w.isLt
  split at h0 <;> split at h1 <;> omega

/-- A word below 12288 is not signed-negative. -/
theorem slt_zero (w : BitVec 32) (hw : w.toNat < 12288) : IntOp.cmpi .slt w 0#32 = 0#1 := by
  have hs : w.toInt = w.toNat := StableHlo.Predicate.toInt_eq_toNat_of_lt (by omega)
  have e0 : (0#32 : BitVec 32).toInt = 0 := by decide
  have hn : ¬ ((w.toNat : Int) < 0) := by omega
  unfold IntOp.cmpi
  simp only [BitVec.slt, hs, e0, decide_eq_false hn]
  rfl

/-- A word below 12288 is signed-nonnegative. -/
theorem sge_zero (w : BitVec 32) (hw : w.toNat < 12288) : IntOp.cmpi .sge w 0#32 = 1#1 :=
  (StableHlo.Predicate.sge_iff_toNat (by omega) (by decide)).2 (Nat.zero_le _)

/-- A word below 12288 is signed-at-most 12287. -/
theorem sle_last (w : BitVec 32) (hw : w.toNat < 12288) : IntOp.cmpi .sle w 12287#32 = 1#1 := by
  have e : (12287#32 : BitVec 32).toNat = 12287 := by decide
  exact (StableHlo.Predicate.sle_iff_toNat (by omega) (by decide)).2 (by rw [e]; omega)

/-! ## The whole array -/

/-- The rank-0 shape has exactly one index. -/
instance : Subsingleton Cert.Pre_finite_inputs.S_.Idx := ⟨fun a b => funext fun d => d.elim0⟩

/-- Under the precondition every entry of the edge-index array is below 12288.
    The precondition at its one index is a conjunction; its right-hand conjunct is the "for all entries"
    of (e ≥ 0) ∧ (e < 12288), where 0 and 12288 are scalars spread over the array. So at each entry both
    compares hold against the scalars themselves, and the one-word lemma finishes. -/
theorem of_pre {F : FTy → Type} [FloatOps F] [Cert.Pre_finite_inputs.Facts]
    (a0 : FVec F Cert.Pre_finite_inputs.S12288x512 .f32) (a1 : IVec Cert.Pre_finite_inputs.S2x393216 32)
    (a2 : FVec F Cert.Pre_finite_inputs.S512x256 .f32) (a3 : FVec F Cert.Pre_finite_inputs.S256 .f32)
    (a4 : FVec F Cert.Pre_finite_inputs.S256x256 .f32) (a5 : FVec F Cert.Pre_finite_inputs.S256 .f32)
    (a6 : FVec F Cert.Pre_finite_inputs.S256x64 .f32) (a7 : FVec F Cert.Pre_finite_inputs.S64 .f32)
    (h : Cert.Pre_finite_inputs.fn (F := F) a0 a1 a2 a3 a4 a5 a6 a7 = fun _ => 1#1)
    (i : Cert.Pre_finite_inputs.S2x393216.Idx) : (a1 i).toNat < 12288 := by
  have h' := congrFun h ValueIdx.ix0
  dsimp only [Cert.Pre_finite_inputs.fn, Cert.Pre_finite_inputs.fn_part1, Cert.Pre_finite_inputs.fn_part2] at h'
  -- the outermost conjunction: keep its right-hand side, the range test over all entries
  have hlast := (IntOp.andi_eq_one.1 h').2
  -- "all entries" gives the test at entry i, itself a conjunction of the two compares
  have hall := Host.reduce_andi_all _ _ _ _ _ hlast i
  obtain ⟨hge, hlt⟩ := IntOp.andi_eq_one.1 hall
  change IntOp.cmpi .sge (a1 i) _ = 1#1 at hge
  change IntOp.cmpi .slt (a1 i) _ = 1#1 at hlt
  -- a scalar spread over the array reads as the scalar at every entry
  rw [StableHlo.Predicate.bcast_scalar _ Cert.Pre_finite_inputs.Facts.h_S_] at hge hlt
  exact toNat_lt (a1 i) hge hlt

end Cert.IndexRange
-- ==== Proof.EdgeLoss.lean ====
/-
  The edge loss the kernel program's host code computes after its two kernels.

  After the first kernel the program holds the embedding array z (12288 rows of 64) and the column of its rows'
  lengths; after the second, the all-pairs scores. The host code that follows reads only z, the lengths and the integer
  array of edges: it slices the edge array into the edges' first and second ends, takes the rows of z at each (a
  negative row number has 12288 added; a row number still outside 0 … 12287 would get a row of not-a-number words),
  multiplies the two rows entry by entry and sums each, takes the two lengths at the same ends, and forms minus the
  mean over the 393216 edges of log (1 / (1 + exp (−(inner product / max (product of lengths, floor))))).

  When every edge end is a row number in 0 … 12287 the range test is 1 everywhere, each take is the plain gather, and
  the whole is the reference's chain of the same three arrays.
-/
import proofs.«400617_j63574105915522_1_alg».proof.Proof.Gen.KernelIdeal.Regions
import proofs.«400617_j63574105915522_1_alg».proof.Proof.LossChain
import proofs.«400617_j63574105915522_1_alg».proof.Proof.IndexRange
import Idealize.ShloMosaic.Lib.StableHlo.Run
import Idealize.ShloMosaic.Lib.ValueIdx
import Idealize.ShloMosaic.Lib.StableHlo.Predicate
import Idealize.ShloMosaic.Lib.ReduceAll

noncomputable section

namespace Cert.KernelIdeal.EdgeLoss

open Cert.KernelIdeal Cert.KernelIdeal.Gen Idealize.ShloMosaic Idealize.ShloMosaic.TcCoe

variable {F : FTy → Type} [FloatOps F] (m : (ℓ : Loc nD τ sig) → Buf (Elt F) ℓ) (outs : Outs (F := F))

/-! ## What the kernels' own buffers hold around the host stretches -/

/-- The row vector of lengths the second kernel reads is the column the first kernel wrote, reshaped. -/
theorem V2_main_v1 (c : Dev nD) :
    V2 m outs c main_v1 = shapeCast S1x12288 (outs 1 main_v0_1 c) shapeCasts_S12288x1_S1x12288 := by
  have e : V1 m outs c main_v0_1 = outs 1 main_v0_1 c := by
    simp only [V1, Function.update_self]
  rw [← e]
  show StableHlo.after hostOps1 (V1 m outs c) (Proc.devRef .tc main_v1) = _
  after_results
  rfl

/-- The second kernel's output passes the later host stretches untouched. -/
theorem V7_main_v2 (c : Dev nD) : V7 m outs c main_v2 = outs 3 main_v2 c :=
  (V7_of m outs c main_v2 (by decide)).trans <| (V6_of m outs c main_v2 (by decide)).trans <|
    (V5_of m outs c main_v2 (by decide)).trans <| (V4_of m outs c main_v2 (by decide)).trans <| by
      simp only [V3, Function.update_self]

/-! ## Taking rows of a table at edge ends -/

section Take

open Cert.ReferenceIdeal.LossChain (wrapped rowsAt lensAt fillI fillF zeroF firstEnds secondEnds lossOf edgeDots edgeLens)

/-- A left fold by `and` over one-bit words, started at 1 and meeting only 1s, ends at 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A reduction by `and`, from 1, of an array of one-bit words that are all 1 is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x _ fun i _ => hx i

/-- A broadcast reads its operand somewhere. -/
theorem bcast_reads {α : Type} {s t : Shape} (dims : Fin s.rank → Fin t.rank) (h : s.BroadcastsInDim t dims)
    (x : s.Idx → α) (j : t.Idx) : ∃ k, broadcastInDim t dims h x j = x k := by
  unfold broadcastInDim
  exact ⟨_, rfl⟩

/-- The test that a column of row numbers lies in 0 … 12287, spread over the 64 entries of each row: 1 where it does. -/
def inRows (w : (⟨S393216x1, .i32⟩ : BufTy).Contents (Elt F)) : (⟨S393216x64, .i1⟩ : BufTy).Contents (Elt F) :=
  broadcastInDim S393216x64 ![0] bcast_S393216_S393216x64_0
    (Host.reduce IntOp.andi
      (andi (cmpi .sge w (broadcastInDim S393216x1 ![] bcast_S_S393216x1 (constantI S_ 32 0#32)))
        (cmpi .sle w (broadcastInDim S393216x1 ![0, 1] bcast_S1x1_S393216x1_0_1
          (broadcastInDim S1x1 ![1] bcast_S1_S1x1_1 (constantI S1 32 12287#32)))))
      (constantI S_ 1 1#1) reducesTo_S393216x1_S393216_d1 h_S_)

/-- For each edge the table's row at the given end, or a row of not-a-number words where the end is out of range. -/
def takeRows (z : (⟨S12288x64, .f32⟩ : BufTy).Contents (Elt F)) (v : (⟨S393216, .i32⟩ : BufTy).Contents (Elt F)) :
    (⟨S393216x64, .f32⟩ : BufTy).Contents (Elt F) :=
  select (inRows (F := F) (wrapped (F := F) v)) (rowsAt (F := F) z v)
    (broadcastInDim S393216x64 ![] bcast_S_S393216x64 (constant S_ .f32 0x7FC00000#32))

/-- A row number below 12288 is left as it is by the wrap: every wrapped entry is below 12288. -/
theorem wrapped_lt (v : (⟨S393216, .i32⟩ : BufTy).Contents (Elt F)) (hv : ∀ k, (v k).toNat < 12288)
    (i : S393216x1.Idx) : (wrapped (F := F) v i).toNat < 12288 := by
  unfold wrapped
  obtain ⟨k, hk⟩ := bcast_reads _ Cert.ReferenceIdeal.Gen.bcast_S393216_S393216x1_0
    (select (cmpi .slt v (fillI (F := F) 0#32)) (addi v (fillI (F := F) 12288#32)) v) i
  rw [hk, ValueIdx.select_apply]
  have e : cmpi .slt v (fillI (F := F) 0#32) k = IntOp.cmpi .slt (v k) 0#32 := rfl
  rw [e, Cert.IndexRange.slt_zero _ (hv k), ValueIdx.select_zero]
  exact hv k

/-- With every row number in range the test is 1 everywhere. -/
theorem inRows_wrapped (v : (⟨S393216, .i32⟩ : BufTy).Contents (Elt F)) (hv : ∀ k, (v k).toNat < 12288)
    (j : S393216x64.Idx) : inRows (F := F) (wrapped (F := F) v) j = 1#1 := by
  unfold inRows
  obtain ⟨k, hk⟩ := bcast_reads _ bcast_S393216_S393216x64_0
    (Host.reduce IntOp.andi
      (andi (cmpi .sge (wrapped (F := F) v) (broadcastInDim S393216x1 ![] bcast_S_S393216x1 (constantI S_ 32 0#32)))
        (cmpi .sle (wrapped (F := F) v) (broadcastInDim S393216x1 ![0, 1] bcast_S1x1_S393216x1_0_1
          (broadcastInDim S1x1 ![1] bcast_S1_S1x1_1 (constantI S1 32 12287#32)))))
      (constantI S_ 1 1#1) reducesTo_S393216x1_S393216_d1 h_S_) j
  rw [hk]
  refine reduce_andi_ones _ _ _ _ (fun i => ?_) rfl k
  have e : andi (cmpi .sge (wrapped (F := F) v) (broadcastInDim S393216x1 ![] bcast_S_S393216x1 (constantI S_ 32 0#32)))
        (cmpi .sle (wrapped (F := F) v) (broadcastInDim S393216x1 ![0, 1] bcast_S1x1_S393216x1_0_1
          (broadcastInDim S1x1 ![1] bcast_S1_S1x1_1 (constantI S1 32 12287#32)))) i
      = IntOp.andi (IntOp.cmpi .sge (wrapped (F := F) v i) 0#32) (IntOp.cmpi .sle (wrapped (F := F) v i) 12287#32) := rfl
  rw [e, Cert.IndexRange.sge_zero _ (wrapped_lt (F := F) v hv i), Cert.IndexRange.sle_last _ (wrapped_lt (F := F) v hv i)]
  rfl

/-- With every row number in range the take is the plain gather. -/
theorem takeRows_of_range (z : (⟨S12288x64, .f32⟩ : BufTy).Contents (Elt F))
    (v : (⟨S393216, .i32⟩ : BufTy).Contents (Elt F)) (hv : ∀ k, (v k).toNat < 12288) :
    takeRows (F := F) z v = rowsAt (F := F) z v := by
  funext j
  unfold takeRows
  rw [ValueIdx.select_apply, inRows_wrapped (F := F) v hv j, ValueIdx.select_one]

end Take

/-! ## The host stretches, one buffer each, over any contents before the stretch -/

section Stretches

open Cert.ReferenceIdeal.LossChain (wrapped rowsAt lensAt fillI fillF zeroF firstEnds secondEnds lossOf edgeDots edgeLens)

variable (W : Valuation τ sig (Elt F))

/-- The lengths column as a flat array. -/
theorem after2_main_v3 :
    StableHlo.after hostOps2 W (Proc.devRef .tc main_v3)
      = shapeCast S12288 (W main_v0_1) shapeCasts_S12288x1_S12288 := by
  after_results_simp
  rfl

/-- The edges' first ends. -/
theorem after2_main_v5 :
    StableHlo.after hostOps2 W (Proc.devRef .tc main_v5) = firstEnds (F := F) (W main_arg1) := by
  after_results_simp
  rfl

/-- The edges' second ends. -/
theorem after2_main_v7 :
    StableHlo.after hostOps2 W (Proc.devRef .tc main_v7) = secondEnds (F := F) (W main_arg1) := by
  after_results_simp
  rfl

/-- The first take: rows of the embedding at the edges' first ends. -/
theorem after2_1_main_v8 :
    StableHlo.after hostOps2_1 W (Proc.devRef .tc main_v8) = takeRows (F := F) (W main_v0_0) (W main_v5) := by
  after_results_simp
  simp only [StableHlo.TRef.ofBuf, StableHlo.TRef.toBuf, cast_eq]
  rfl

/-- The second take: rows of the embedding at the edges' second ends. -/
theorem after2_2_main_v9 :
    StableHlo.after hostOps2_2 W (Proc.devRef .tc main_v9) = takeRows (F := F) (W main_v0_0) (W main_v7) := by
  after_results_simp
  simp only [StableHlo.TRef.ofBuf, StableHlo.TRef.toBuf, cast_eq]
  rfl

/-- The loss as a function of the two arrays of taken rows, the flat lengths and the two arrays of edge ends: minus
    the mean over the edges of the logarithm of 1 / (1 + exp (−(inner product / floored product of lengths))). -/
def lossK (r1 r2 : (⟨S393216x64, .f32⟩ : BufTy).Contents (Elt F)) (nrm : (⟨S12288, .f32⟩ : BufTy).Contents (Elt F))
    (a b : (⟨S393216, .i32⟩ : BufTy).Contents (Elt F)) : (⟨S_, .f32⟩ : BufTy).Contents (Elt F) :=
  Host.negf (Host.divf
    (Host.reduceAdd
      (Host.log (Host.divf (fillF (F := F) 0x3F800000#32)
        (addf (fillF (F := F) 0x3F800000#32)
          (Host.exp (Host.negf (Host.divf
            (Host.reduceAdd (mulf r1 r2) (zeroF (F := F)) reducesTo_S393216x64_S393216_d1 h_S_)
            (maximumf (mulf (lensAt (F := F) nrm a) (lensAt (F := F) nrm b)) (fillF (F := F) 0x322BCC77#32))))))))
      (zeroF (F := F)) reducesTo_S393216_S_d0 h_S_)
    (constant S_ .f32 0x48C00000#32 : (⟨S_, .f32⟩ : BufTy).Contents (Elt F)))

/-- The last stretch computes that function of the buffers before it. -/
theorem after2_3_main_v39 :
    StableHlo.after hostOps2_3 W (Proc.devRef .tc main_v39)
      = lossK (F := F) (W main_v8) (W main_v9) (W main_v3) (W main_v5) (W main_v7) := by
  after_results_simp
  rfl

/-- The reference's chain is that function of the plain gathers. -/
theorem lossOf_eq_lossK (z : (⟨S12288x64, .f32⟩ : BufTy).Contents (Elt F)) (nrm : (⟨S12288, .f32⟩ : BufTy).Contents (Elt F))
    (x1 : (⟨S2x393216, .i32⟩ : BufTy).Contents (Elt F)) :
    lossOf (F := F) z nrm x1
      = lossK (F := F) (rowsAt (F := F) z (firstEnds (F := F) x1)) (rowsAt (F := F) z (secondEnds (F := F) x1)) nrm
          (firstEnds (F := F) x1) (secondEnds (F := F) x1) := by
  unfold lossOf edgeDots edgeLens lossK
  rfl

end Stretches

/-! ## The buffers the loss is computed from, stretch by stretch -/

section Assembly

open Cert.ReferenceIdeal.LossChain (wrapped rowsAt lensAt fillI fillF zeroF firstEnds secondEnds lossOf edgeDots edgeLens)

/-- The embedding array, as the first kernel left it, is still there after the second kernel. -/
theorem V3_main_v0_0 (c : Dev nD) : V3 m outs c main_v0_0 = outs 1 main_v0_0 c :=
  (V3_of m outs c main_v0_0 (by decide)).trans <| (V2_of m outs c main_v0_0 (by decide)).trans <| by
    simp only [V1, Function.update_of_ne (StableHlo.devRef_ne_of_ne (by decide : main_v0_0 ≠ main_v0_1) :
      (Proc.devRef .tc main_v0_0 : DevRef τ sig) ≠ Proc.devRef .tc main_v0_1), Function.update_self]

/-- So is the lengths column. -/
theorem V3_main_v0_1 (c : Dev nD) : V3 m outs c main_v0_1 = outs 1 main_v0_1 c :=
  (V3_of m outs c main_v0_1 (by decide)).trans <| (V2_of m outs c main_v0_1 (by decide)).trans <| by
    simp only [V1, Function.update_self]

/-- The edge list is as launched. -/
theorem V3_main_arg1 (c : Dev nD) : V3 m outs c main_arg1 = m ((c : Thread nD τ).loc main_arg1) :=
  (V3_of m outs c main_arg1 (by decide)).trans <| (V2_of m outs c main_arg1 (by decide)).trans <|
    (V1_of m outs c main_arg1 (by decide)).trans rfl

/-- After the slicing stretch: the flat lengths. -/
theorem V4_main_v3 (c : Dev nD) :
    V4 m outs c main_v3 = shapeCast S12288 (outs 1 main_v0_1 c) shapeCasts_S12288x1_S12288 :=
  (after2_main_v3 (V3 m outs c)).trans (by rw [V3_main_v0_1])

/-- After the slicing stretch: the edges' first ends. -/
theorem V4_main_v5 (c : Dev nD) :
    V4 m outs c main_v5 = firstEnds (F := F) (m ((c : Thread nD τ).loc main_arg1)) :=
  (after2_main_v5 (V3 m outs c)).trans (by rw [V3_main_arg1])

/-- After the slicing stretch: the edges' second ends. -/
theorem V4_main_v7 (c : Dev nD) :
    V4 m outs c main_v7 = secondEnds (F := F) (m ((c : Thread nD τ).loc main_arg1)) :=
  (after2_main_v7 (V3 m outs c)).trans (by rw [V3_main_arg1])

/-- The slicing stretch leaves the embedding array alone. -/
theorem V4_main_v0_0 (c : Dev nD) : V4 m outs c main_v0_0 = outs 1 main_v0_0 c :=
  (V4_of m outs c main_v0_0 (by decide)).trans (V3_main_v0_0 m outs c)

/-- After the first take. -/
theorem V5_main_v8 (c : Dev nD) :
    V5 m outs c main_v8
      = takeRows (F := F) (outs 1 main_v0_0 c) (firstEnds (F := F) (m ((c : Thread nD τ).loc main_arg1))) :=
  (after2_1_main_v8 (V4 m outs c)).trans (by rw [V4_main_v0_0, V4_main_v5])

/-- After the second take. -/
theorem V6_main_v9 (c : Dev nD) :
    V6 m outs c main_v9
      = takeRows (F := F) (outs 1 main_v0_0 c) (secondEnds (F := F) (m ((c : Thread nD τ).loc main_arg1))) :=
  (after2_2_main_v9 (V5 m outs c)).trans (by
    rw [V5_of m outs c main_v0_0 (by decide), V5_of m outs c main_v7 (by decide), V4_main_v0_0, V4_main_v7])

/-- The second take leaves the first take's result alone. -/
theorem V6_main_v8 (c : Dev nD) :
    V6 m outs c main_v8
      = takeRows (F := F) (outs 1 main_v0_0 c) (firstEnds (F := F) (m ((c : Thread nD τ).loc main_arg1))) :=
  (V6_of m outs c main_v8 (by decide)).trans (V5_main_v8 m outs c)

/-- The two takes leave the flat lengths alone. -/
theorem V6_main_v3 (c : Dev nD) :
    V6 m outs c main_v3 = shapeCast S12288 (outs 1 main_v0_1 c) shapeCasts_S12288x1_S12288 :=
  (V6_of m outs c main_v3 (by decide)).trans <| (V5_of m outs c main_v3 (by decide)).trans (V4_main_v3 m outs c)

/-- The two takes leave the edges' first ends alone. -/
theorem V6_main_v5 (c : Dev nD) :
    V6 m outs c main_v5 = firstEnds (F := F) (m ((c : Thread nD τ).loc main_arg1)) :=
  (V6_of m outs c main_v5 (by decide)).trans <| (V5_of m outs c main_v5 (by decide)).trans (V4_main_v5 m outs c)

/-- The two takes leave the edges' second ends alone. -/
theorem V6_main_v7 (c : Dev nD) :
    V6 m outs c main_v7 = secondEnds (F := F) (m ((c : Thread nD τ).loc main_arg1)) :=
  (V6_of m outs c main_v7 (by decide)).trans <| (V5_of m outs c main_v7 (by decide)).trans (V4_main_v7 m outs c)

/-- The loss: with every edge end a row number of the embedding, the host code after the two kernels computes the
    reference's chain of the embedding array, the flat lengths and the edge list. -/
theorem V7_main_v39 (c : Dev nD) (hr : ∀ i : S2x393216.Idx, (m ((c : Thread nD τ).loc main_arg1) i).toNat < 12288) :
    V7 m outs c main_v39 = Cert.ReferenceIdeal.LossChain.lossOf (F := F) (outs 1 main_v0_0 c)
      (shapeCast S12288 (outs 1 main_v0_1 c) shapeCasts_S12288x1_S12288) (m ((c : Thread nD τ).loc main_arg1)) := by
  have h1 : ∀ k, (firstEnds (F := F) (m ((c : Thread nD τ).loc main_arg1)) k).toNat < 12288 := fun k => hr _
  have h2 : ∀ k, (secondEnds (F := F) (m ((c : Thread nD τ).loc main_arg1)) k).toNat < 12288 := fun k => hr _
  rw [lossOf_eq_lossK]
  refine (after2_3_main_v39 (V6 m outs c)).trans ?_
  rw [V6_main_v8 m outs c, V6_main_v9 m outs c, V6_main_v3 m outs c, V6_main_v5 m outs c, V6_main_v7 m outs c,
    takeRows_of_range _ _ h1, takeRows_of_range _ _ h2]

end Assembly

end Cert.KernelIdeal.EdgeLoss

end
-- ==== Proof.Spec.lean ====
/-
  The mathematics both programs compute, over the extended reals, stated once and over plain coordinates.

  A graph auto-encoder: every node's feature row goes through three affine layers, the first two followed by a
  rectifier, giving an embedding row `z i` of width 64; `rowNorm z i` is that row's Euclidean length; the decoder's
  score of a pair of nodes is the logistic function of their cosine similarity, the denominator kept away from zero
  by a floor `eps`.  Every sum below is a finite sum over an axis, every operation the exact one on `EReal`: no
  rounding, so the order and grouping in which either program adds its terms does not matter.
-/
import Idealize.ShloMosaic.PureOps.Ideal
import Idealize.ShloMosaic.PureOps.Ideal.Laws
import Idealize.ShloMosaic.Lib.ValueIdx

noncomputable section

namespace Cert.Spec

open Idealize.ShloMosaic

/-- One affine layer at output position `(i, j)`: row `i` of the input against column `j` of the weights, plus the bias. -/
def affine {n k m : Nat} (x : Fin n → Fin k → EReal) (W : Fin k → Fin m → EReal) (b : Fin m → EReal)
    (i : Fin n) (j : Fin m) : EReal :=
  (∑ l : Fin k, x i l * W l j) + b j

/-- The rectifier: the larger of a value and zero. -/
def relu (v : EReal) : EReal := max v 0

/-- The encoder: affine, rectifier, affine, rectifier, affine. -/
def embed {n d h o : Nat} (x : Fin n → Fin d → EReal) (W0 : Fin d → Fin h → EReal) (b0 : Fin h → EReal)
    (W1 : Fin h → Fin h → EReal) (b1 : Fin h → EReal) (W2 : Fin h → Fin o → EReal) (b2 : Fin o → EReal) :
    Fin n → Fin o → EReal :=
  affine (fun i j => relu (affine (fun i j => relu (affine x W0 b0 i j)) W1 b1 i j)) W2 b2

/-- The Euclidean length of row `i`. -/
def rowNorm {n o : Nat} (z : Fin n → Fin o → EReal) (i : Fin n) : EReal :=
  Ideal.sqrt (∑ k : Fin o, z i k * z i k)

/-- The floor under the cosine's denominator: the single-precision word both programs carry. -/
def eps : EReal := Ideal.ofBits .f32 0x322BCC77#32

/-- The decoder's score of the pair `(i, j)`: the logistic function of the rows' inner product over the floored
    product of their lengths. -/
def score {n o : Nat} (z : Fin n → Fin o → EReal) (nrm : Fin n → EReal) (i j : Fin n) : EReal :=
  Ideal.logistic (Ideal.div (∑ k : Fin o, z i k * z j k) (max (nrm i * nrm j) eps))

/-- A layer's output at row `i` reads the input only along row `i`. -/
theorem affine_congr_row {n n' k m : Nat} {x : Fin n → Fin k → EReal} {x' : Fin n' → Fin k → EReal}
    (W : Fin k → Fin m → EReal) (b : Fin m → EReal) {i : Fin n} {i' : Fin n'} (h : ∀ l, x i l = x' i' l) (j : Fin m) :
    affine x W b i j = affine x' W b i' j := by
  unfold affine; simp only [h]

/-- The encoder is row-wise: row `i` of the embedding depends on the input only through its row `i`. So a block of
    rows embeds to the same block of the whole array's embedding. -/
theorem embed_congr_row {n n' d h o : Nat} {x : Fin n → Fin d → EReal} {x' : Fin n' → Fin d → EReal}
    (W0 : Fin d → Fin h → EReal) (b0 : Fin h → EReal) (W1 : Fin h → Fin h → EReal) (b1 : Fin h → EReal)
    (W2 : Fin h → Fin o → EReal) (b2 : Fin o → EReal) {i : Fin n} {i' : Fin n'} (hx : ∀ l, x i l = x' i' l) (j : Fin o) :
    embed x W0 b0 W1 b1 W2 b2 i j = embed x' W0 b0 W1 b1 W2 b2 i' j := by
  unfold embed
  refine affine_congr_row W2 b2 (fun l => ?_) j
  refine congrArg relu (affine_congr_row W1 b1 (fun l' => ?_) l)
  exact congrArg relu (affine_congr_row W0 b0 hx l')

/-- Likewise a row's length reads the embedding only along that row. -/
theorem rowNorm_congr_row {n n' o : Nat} {z : Fin n → Fin o → EReal} {z' : Fin n' → Fin o → EReal} {i : Fin n} {i' : Fin n'}
    (h : ∀ k, z i k = z' i' k) : rowNorm z i = rowNorm z' i' := by
  unfold rowNorm; simp only [h]

/-! ## The same, of the seven float argument arrays -/

open ValueIdx in
/-- The embedding of the argument arrays: features `a0` [12288, 512], then weights and biases of the three layers. -/
def embedOf (a0 : (⟨2, ![12288, 512]⟩ : Shape).Idx → EReal) (a2 : (⟨2, ![512, 256]⟩ : Shape).Idx → EReal)
    (a3 : (⟨1, ![256]⟩ : Shape).Idx → EReal) (a4 : (⟨2, ![256, 256]⟩ : Shape).Idx → EReal)
    (a5 : (⟨1, ![256]⟩ : Shape).Idx → EReal) (a6 : (⟨2, ![256, 64]⟩ : Shape).Idx → EReal)
    (a7 : (⟨1, ![64]⟩ : Shape).Idx → EReal) : Fin 12288 → Fin 64 → EReal :=
  embed (fun i k => a0 (ix2 i k)) (fun k j => a2 (ix2 k j)) (fun j => a3 (ix1 j)) (fun k j => a4 (ix2 k j))
    (fun j => a5 (ix1 j)) (fun k j => a6 (ix2 k j)) (fun j => a7 (ix1 j))

/-- The embedding rows' lengths. -/
def normOf (a0 : (⟨2, ![12288, 512]⟩ : Shape).Idx → EReal) (a2 : (⟨2, ![512, 256]⟩ : Shape).Idx → EReal)
    (a3 : (⟨1, ![256]⟩ : Shape).Idx → EReal) (a4 : (⟨2, ![256, 256]⟩ : Shape).Idx → EReal)
    (a5 : (⟨1, ![256]⟩ : Shape).Idx → EReal) (a6 : (⟨2, ![256, 64]⟩ : Shape).Idx → EReal)
    (a7 : (⟨1, ![64]⟩ : Shape).Idx → EReal) : Fin 12288 → EReal :=
  rowNorm (embedOf a0 a2 a3 a4 a5 a6 a7)

/-- The all-pairs scores. -/
def scoreOf (a0 : (⟨2, ![12288, 512]⟩ : Shape).Idx → EReal) (a2 : (⟨2, ![512, 256]⟩ : Shape).Idx → EReal)
    (a3 : (⟨1, ![256]⟩ : Shape).Idx → EReal) (a4 : (⟨2, ![256, 256]⟩ : Shape).Idx → EReal)
    (a5 : (⟨1, ![256]⟩ : Shape).Idx → EReal) (a6 : (⟨2, ![256, 64]⟩ : Shape).Idx → EReal)
    (a7 : (⟨1, ![64]⟩ : Shape).Idx → EReal) (i j : Fin 12288) : EReal :=
  score (embedOf a0 a2 a3 a4 a5 a6 a7) (normOf a0 a2 a3 a4 a5 a6 a7) i j

open ValueIdx in
/-- The score of the pair `(p, q)` read off an embeddings array, the lengths laid as a column and the lengths laid as
    a row (the second launch reads the lengths in both layouts). -/
def scoreAt (Z : (⟨2, ![12288, 64]⟩ : Shape).Idx → EReal) (Ncol : (⟨2, ![12288, 1]⟩ : Shape).Idx → EReal)
    (Nrow : (⟨2, ![1, 12288]⟩ : Shape).Idx → EReal) (p q : Fin 12288) : EReal :=
  Ideal.logistic (Ideal.div (∑ k : Fin 64, Z (ix2 p k) * Z (ix2 q k))
    (max (Ncol (ix2 p (0 : Fin 1)) * Nrow (ix2 (0 : Fin 1) q)) eps))

end Cert.Spec

end
-- ==== Proof.RefValue.lean ====
/-
  The reference program computes the specification.

  Read one coordinate at a time, the reference's stages are the specification's formulas.  A product stage at
  `(p, j)` is the sum over the contracted axis of row `p` of its left operand against column `j` of its right one; a
  bias reaches `(p, j)` through two broadcasts that keep only the coordinate `j`; the rectifier is the maximum with a
  zero array.  Three such layers give the embedding.  A row's length is the square root of the row sum of squares,
  the sum starting from a zero that adds nothing.  A pair's score divides the inner product of two embedding rows
  (the second operand is the embedding transposed) by the floored product of the two lengths, and
  `1 / (1 + exp (-t))` is the logistic function of `t` by definition.  Over the extended reals each of these readings is
  an equality of terms, so after the index bookkeeping every statement closes by unfolding the specification's names.
-/
import proofs.«400617_j63574105915522_1_alg».proof.Proof.Gen.ReferenceIdeal.Run
import proofs.«400617_j63574105915522_1_alg».proof.Proof.Gen.ReferenceIdeal.Read
import proofs.«400617_j63574105915522_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Read Idealize.ShloMosaic Idealize.ShloMosaic.ValueIdx

variable (x0 : (⟨S12288x512, .f32⟩ : BufTy).Contents (Elt Ideal)) (x2 : (⟨S512x256, .f32⟩ : BufTy).Contents (Elt Ideal))
  (x3 : (⟨S256, .f32⟩ : BufTy).Contents (Elt Ideal)) (x4 : (⟨S256x256, .f32⟩ : BufTy).Contents (Elt Ideal))
  (x5 : (⟨S256, .f32⟩ : BufTy).Contents (Elt Ideal)) (x6 : (⟨S256x64, .f32⟩ : BufTy).Contents (Elt Ideal))
  (x7 : (⟨S64, .f32⟩ : BufTy).Contents (Elt Ideal))

/-! ## The three layers -/

/-- After the first layer and its rectifier: the reference's stage %4 at a coordinate pair. The product stage reads
    row `p` of the features against column `j` of the first weights, the two broadcasts bring the bias entry `j`, and the
    maximum with the zero array is the rectifier. -/
theorem layer1_apply (p : Fin 12288) (j : Fin 256) :
    val_main_v4 (F := Ideal) x0 x2 x3 (ix2 p j) =
      Cert.Spec.relu (Cert.Spec.affine (fun i k => x0 (ix2 i k)) (fun k j => x2 (ix2 k j)) (fun j => x3 (ix1 j)) p j) := by
  have el : ∀ k : Fin 512, lidx_main_v0 (ix2 p j) k = ix2 p k := fun k =>
    funext fun a => by match a with | ⟨0, _⟩ => rfl | ⟨1, _⟩ => rfl
  have er : ∀ k : Fin 512, ridx_main_v0 (ix2 p j) k = ix2 k j := fun k =>
    funext fun a => by match a with | ⟨0, _⟩ => rfl | ⟨1, _⟩ => rfl
  have eb : idx_main_v1 (idx_main_v2 (ix2 p j)) = ix1 j :=
    funext fun a => by match a with | ⟨0, _⟩ => rfl
  rw [val_main_v4_apply, val_main_v3_apply, val_main_v0_apply, val_main_v2_apply, val_main_v1_apply,
    val_main_call0_v0_apply, val_main_call0_cst_apply]
  simp only [el, er, eb, Ideal.maximumf_def, Ideal.addf_def, Ideal.ofBits_def, Ideal.ofBits_zero_f32]
  rfl

/-- After the second layer and its rectifier: stage %9 at a coordinate pair, the first layer's output standing where
    the features stood. -/
theorem layer2_apply (p : Fin 12288) (j : Fin 256) :
    val_main_v9 (F := Ideal) x0 x2 x3 x4 x5 (ix2 p j) =
      Cert.Spec.relu (Cert.Spec.affine
        (fun i j => Cert.Spec.relu (Cert.Spec.affine (fun i k => x0 (ix2 i k)) (fun k j => x2 (ix2 k j)) (fun j => x3 (ix1 j)) i j))
        (fun k j => x4 (ix2 k j)) (fun j => x5 (ix1 j)) p j) := by
  have el : ∀ k : Fin 256, lidx_main_v5 (ix2 p j) k = ix2 p k := fun k =>
    funext fun a => by match a with | ⟨0, _⟩ => rfl | ⟨1, _⟩ => rfl
  have er : ∀ k : Fin 256, ridx_main_v5 (ix2 p j) k = ix2 k j := fun k =>
    funext fun a => by match a with | ⟨0, _⟩ => rfl | ⟨1, _⟩ => rfl
  have eb : idx_main_v6 (idx_main_v7 (ix2 p j)) = ix1 j :=
    funext fun a => by match a with | ⟨0, _⟩ => rfl
  rw [val_main_v9_apply, val_main_v8_apply, val_main_v5_apply, val_main_v7_apply, val_main_v6_apply,
    val_main_call1_v0_apply, val_main_call1_cst_apply]
  simp only [el, er, eb, layer1_apply, Ideal.maximumf_def, Ideal.addf_def, Ideal.ofBits_def, Ideal.ofBits_zero_f32]
  rfl

/-- The embedding: stage %13 at a coordinate pair is the specification's encoder of the seven float arguments. -/
theorem z_apply (p : Fin 12288) (q : Fin 64) :
    val_main_v13 (F := Ideal) x0 x2 x3 x4 x5 x6 x7 (ix2 p q) = Cert.Spec.embedOf x0 x2 x3 x4 x5 x6 x7 p q := by
  have el : ∀ k : Fin 256, lidx_main_v10 (ix2 p q) k = ix2 p k := fun k =>
    funext fun a => by match a with | ⟨0, _⟩ => rfl | ⟨1, _⟩ => rfl
  have er : ∀ k : Fin 256, ridx_main_v10 (ix2 p q) k = ix2 k q := fun k =>
    funext fun a => by match a with | ⟨0, _⟩ => rfl | ⟨1, _⟩ => rfl
  have eb : idx_main_v11 (idx_main_v12 (ix2 p q)) = ix1 q :=
    funext fun a => by match a with | ⟨0, _⟩ => rfl
  rw [val_main_v13_apply, val_main_v10_apply, val_main_v12_apply, val_main_v11_apply]
  simp only [el, er, eb, layer2_apply, Ideal.addf_def]
  rfl

/-! ## The row lengths -/

/-- Stage %14 at a coordinate: the square root of the sum, along the row, of the embedding's squares; the sum starts
    from the zero word, which adds nothing. -/
theorem nrm_apply (p : Fin 12288) :
    val_main_v14 (F := Ideal) x0 x2 x3 x4 x5 x6 x7 (ix1 p) = Cert.Spec.normOf x0 x2 x3 x4 x5 x6 x7 p := by
  have ei : ∀ k : Fin 64, idx_main_call2_v1 (ix1 p) k = ix2 p k := fun k =>
    funext fun a => by match a with | ⟨0, _⟩ => rfl | ⟨1, _⟩ => rfl
  rw [val_main_v14_apply, val_main_call2_v1_apply, val_main_call2_cst_apply]
  simp only [val_main_call2_v0_apply, ei, z_apply, Ideal.mulf_def, Ideal.ofBits_def, Ideal.ofBits_zero_f32, zero_add,
    Ideal.hostUnary_sqrt_def]
  rfl

/-! ## The all-pairs scores -/

/-- The product stage %64 at a coordinate pair: the inner product of rows `p` and `q` of the embedding (its right
    operand is the embedding transposed, so column `q` of that operand is row `q`). -/
theorem gram_apply (p q : Fin 12288) :
    val_main_v64 (F := Ideal) x0 x2 x3 x4 x5 x6 x7 (ix2 p q) =
      ∑ k : Fin 64, Cert.Spec.embedOf x0 x2 x3 x4 x5 x6 x7 p k * Cert.Spec.embedOf x0 x2 x3 x4 x5 x6 x7 q k := by
  have el : ∀ k : Fin 64, lidx_main_v64 (ix2 p q) k = ix2 p k := fun k =>
    funext fun a => by match a with | ⟨0, _⟩ => rfl | ⟨1, _⟩ => rfl
  have er : ∀ k : Fin 64, idx_main_v63 (ridx_main_v64 (ix2 p q) k) = ix2 q k := fun k =>
    funext fun a => by match a with | ⟨0, _⟩ => rfl | ⟨1, _⟩ => rfl
  rw [val_main_v64_apply]
  simp only [val_main_v63_apply, el, er, z_apply]

/-- The floored product of lengths, stage %71 at a coordinate pair: the two broadcasts bring length `p` along the rows
    and length `q` along the columns. -/
theorem denom_apply (p q : Fin 12288) :
    val_main_v71 (F := Ideal) x0 x2 x3 x4 x5 x6 x7 (ix2 p q) =
      max (Cert.Spec.normOf x0 x2 x3 x4 x5 x6 x7 p * Cert.Spec.normOf x0 x2 x3 x4 x5 x6 x7 q) Cert.Spec.eps := by
  have e1 : idx_main_v65 (idx_main_v67 (ix2 p q)) = ix1 p :=
    funext fun a => by match a with | ⟨0, _⟩ => rfl
  have e2 : idx_main_v66 (idx_main_v68 (ix2 p q)) = ix1 q :=
    funext fun a => by match a with | ⟨0, _⟩ => rfl
  rw [val_main_v71_apply, val_main_v69_apply, val_main_v67_apply, val_main_v65_apply, val_main_v68_apply,
    val_main_v66_apply, val_main_v70_apply, val_main_cst_12_apply]
  simp only [e1, e2, nrm_apply, Ideal.maximumf_def, Ideal.mulf_def, Ideal.ofBits_def]
  rfl

/-- The scores: stage %78 at a coordinate pair. One over one plus the exponential of minus the quotient is the
    logistic function of the quotient, by that function's definition. -/
theorem sim_apply (p q : Fin 12288) :
    val_main_v78 (F := Ideal) x0 x2 x3 x4 x5 x6 x7 (ix2 p q) = Cert.Spec.scoreOf x0 x2 x3 x4 x5 x6 x7 p q := by
  rw [val_main_v78_apply, val_main_v77_apply, val_main_cst_14_apply, val_main_v76_apply, val_main_v75_apply,
    val_main_cst_13_apply, val_main_v74_apply, val_main_v73_apply, val_main_v72_apply, gram_apply, denom_apply]
  simp only [Ideal.hostDivf_def, Ideal.addf_def, Ideal.hostUnary_exp_def, Ideal.hostNegf_def, Ideal.negf_def,
    Ideal.ofBits_def, Ideal.ofBits_one_f32]
  rfl

end Cert.ReferenceIdeal.RefValue

end
-- ==== Proof.EncodePayload.lean ====
/-
  The encoder kernel's two stored values, read one element at a time over the extended reals.

  The first stored value is a block of 1024 embedding rows: three dense layers (a matrix product into a zero
  accumulator, then a bias row added to every row), the first two followed by a rectifier. Narrowing a value to a
  shorter float format changes nothing on the extended reals, so each product is the plain sum over the inner axis of
  row times column. Element `(p, q)` of the block is therefore the specification's embedding of the block's own
  rows at `(p, q)`. The second stored value is a column of row lengths: the squares of a row of the first value summed
  along the row, then the square root; element `(p, 0)` is the specification's row length of row `p`.
-/
import proofs.«400617_j63574105915522_1_alg».proof.Proof.Gen.KernelIdeal.Skeleton
import proofs.«400617_j63574105915522_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.EncodePayload

open Idealize.ShloMosaic Idealize.ShloMosaic.ValueIdx Cert.KernelIdeal Cert.KernelIdeal.Gen

/-! ## The input layer's product at an element -/

/-- The left operand's row coordinate is the output's row. -/
theorem lhsIn_0 (i : S1024x256.Idx) (c : dot_S1024x512_S512x256_S1024x256_1_0_0_1_n_n.contr.Idx) :
    (dot_S1024x512_S512x256_S1024x256_1_0_0_1_n_n.lhsIdx i c 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
/-- The left operand's column coordinate is the summation index. -/
theorem lhsIn_1 (i : S1024x256.Idx) (c : dot_S1024x512_S512x256_S1024x256_1_0_0_1_n_n.contr.Idx) :
    (dot_S1024x512_S512x256_S1024x256_1_0_0_1_n_n.lhsIdx i c 1).val = (c ⟨0, by decide⟩).val :=
  dot_S1024x512_S512x256_S1024x256_1_0_0_1_n_n.lhsIdx_val_of_single rfl i c
/-- The right operand's row coordinate is the summation index. -/
theorem rhsIn_0 (i : S1024x256.Idx) (c : dot_S1024x512_S512x256_S1024x256_1_0_0_1_n_n.contr.Idx) :
    (dot_S1024x512_S512x256_S1024x256_1_0_0_1_n_n.rhsIdx i c 0).val = (c ⟨0, by decide⟩).val :=
  dot_S1024x512_S512x256_S1024x256_1_0_0_1_n_n.rhsIdx_val_of_single rfl i c
/-- The right operand's column coordinate is the output's column. -/
theorem rhsIn_1 (i : S1024x256.Idx) (c : dot_S1024x512_S512x256_S1024x256_1_0_0_1_n_n.contr.Idx) :
    (dot_S1024x512_S512x256_S1024x256_1_0_0_1_n_n.rhsIdx i c 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- Into a zero accumulator the product at `(p, q)` is the sum over the inner axis of row `p` times column `q`. -/
theorem prodIn_apply {φ₁ φ₂ : FTy} (L : FVec Ideal S1024x512 φ₁) (R : FVec Ideal S512x256 φ₂) (p : Fin 1024) (q : Fin 256) :
    matmul dot_S1024x512_S512x256_S1024x256_1_0_0_1_n_n none L R (constant (F := Ideal) S1024x256 .f32 0x00000000#32) (ix2 p q)
      = ∑ k : Fin 512, L (ix2 p k) * R (ix2 k q) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p q) ((contrEquiv1 dot_S1024x512_S512x256_S1024x256_1_0_0_1_n_n 512 rfl rfl).symm k) = ix2 p k := funext fun a => Fin.ext (by
    match a with
    | ⟨0, _⟩ => exact lhsIn_0 _ _
    | ⟨1, _⟩ => exact (lhsIn_1 _ _).trans hk)
  have er : dot_S1024x512_S512x256_S1024x256_1_0_0_1_n_n.rhsIdx (ix2 p q) ((contrEquiv1 dot_S1024x512_S512x256_S1024x256_1_0_0_1_n_n 512 rfl rfl).symm k) = ix2 k q := funext fun a => Fin.ext (by
    match a with
    | ⟨0, _⟩ => exact (rhsIn_0 _ _).trans hk
    | ⟨1, _⟩ => exact rhsIn_1 _ _)
  rw [el, er]

/-! ## The hidden layer's product at an element -/

/-- The left operand's row coordinate is the output's row. -/
theorem lhsMid_0 (i : S1024x256.Idx) (c : dot_S1024x256_S256x256_S1024x256_1_0_0_1_n_n.contr.Idx) :
    (dot_S1024x256_S256x256_S1024x256_1_0_0_1_n_n.lhsIdx i c 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- The left operand's column coordinate is the summation index. -/
theorem lhsMid_1 (i : S1024x256.Idx) (c : dot_S1024x256_S256x256_S1024x256_1_0_0_1_n_n.contr.Idx) :
    (dot_S1024x256_S256x256_S1024x256_1_0_0_1_n_n.lhsIdx i c 1).val = (c ⟨0, by decide⟩).val :=
  dot_S1024x256_S256x256_S1024x256_1_0_0_1_n_n.lhsIdx_val_of_single rfl i c
/-- The right operand's row coordinate is the summation index. -/
theorem rhsMid_0 (i : S1024x256.Idx) (c : dot_S1024x256_S256x256_S1024x256_1_0_0_1_n_n.contr.Idx) :
    (dot_S1024x256_S256x256_S1024x256_1_0_0_1_n_n.rhsIdx i c 0).val = (c ⟨0, by decide⟩).val :=
  dot_S1024x256_S256x256_S1024x256_1_0_0_1_n_n.rhsIdx_val_of_single rfl i c
/-- The right operand's column coordinate is the output's column. -/
theorem rhsMid_1 (i : S1024x256.Idx) (c : dot_S1024x256_S256x256_S1024x256_1_0_0_1_n_n.contr.Idx) :
    (dot_S1024x256_S256x256_S1024x256_1_0_0_1_n_n.rhsIdx i c 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Into a zero accumulator the product at `(p, q)` is the sum over the inner axis of row `p` times column `q`. -/
theorem prodMid_apply {φ₁ φ₂ : FTy} (L : FVec Ideal S1024x256 φ₁) (R : FVec Ideal S256x256 φ₂) (p : Fin 1024) (q : Fin 256) :
    matmul dot_S1024x256_S256x256_S1024x256_1_0_0_1_n_n none L R (constant (F := Ideal) S1024x256 .f32 0x00000000#32) (ix2 p q)
      = ∑ k : Fin 256, L (ix2 p k) * R (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhsMid_0 _ _
    | ⟨1, _⟩ => exact (lhsMid_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhsMid_0 _ _).trans hk
    | ⟨1, _⟩ => exact rhsMid_1 _ _)
  rw [el, er]

/-! ## The output layer's product at an element -/

/-- The left operand's row coordinate is the output's row. -/
theorem lhsOut_0 (i : S1024x64.Idx) (c : dot_S1024x256_S256x64_S1024x64_1_0_0_1_n_n.contr.Idx) :
    (dot_S1024x256_S256x64_S1024x64_1_0_0_1_n_n.lhsIdx i c 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
/-- The left operand's column coordinate is the summation index. -/
theorem lhsOut_1 (i : S1024x64.Idx) (c : dot_S1024x256_S256x64_S1024x64_1_0_0_1_n_n.contr.Idx) :
    (dot_S1024x256_S256x64_S1024x64_1_0_0_1_n_n.lhsIdx i c 1).val = (c ⟨0, by decide⟩).val :=
  dot_S1024x256_S256x64_S1024x64_1_0_0_1_n_n.lhsIdx_val_of_single rfl i c
/-- The right operand's row coordinate is the summation index. -/
theorem rhsOut_0 (i : S1024x64.Idx) (c : dot_S1024x256_S256x64_S1024x64_1_0_0_1_n_n.contr.Idx) :
    (dot_S1024x256_S256x64_S1024x64_1_0_0_1_n_n.rhsIdx i c 0).val = (c ⟨0, by decide⟩).val :=
  dot_S1024x256_S256x64_S1024x64_1_0_0_1_n_n.rhsIdx_val_of_single rfl i c
/-- The right operand's column coordinate is the output's column. -/
theorem rhsOut_1 (i : S1024x64.Idx) (c : dot_S1024x256_S256x64_S1024x64_1_0_0_1_n_n.contr.Idx) :
    (dot_S1024x256_S256x64_S1024x64_1_0_0_1_n_n.rhsIdx i c 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- Into a zero accumulator the product at `(p, q)` is the sum over the inner axis of row `p` times column `q`. -/
theorem prodOut_apply {φ₁ φ₂ : FTy} (L : FVec Ideal S1024x256 φ₁) (R : FVec Ideal S256x64 φ₂) (p : Fin 1024) (q : Fin 64) :
    matmul dot_S1024x256_S256x64_S1024x64_1_0_0_1_n_n none L R (constant (F := Ideal) S1024x64 .f32 0x00000000#32) (ix2 p q)
      = ∑ k : Fin 256, L (ix2 p k) * R (ix2 k q) := by
  simp only [matmul]
  rw [Ideal.matmul_constant_zero_apply, ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 p q) ((contrEquiv1 dot_S1024x256_S256x64_S1024x64_1_0_0_1_n_n 256 rfl rfl).symm k) = ix2 p k := funext fun a => Fin.ext (by
    match a with
    | ⟨0, _⟩ => exact lhsOut_0 _ _
    | ⟨1, _⟩ => exact (lhsOut_1 _ _).trans hk)
  have er : dot_S1024x256_S256x64_S1024x64_1_0_0_1_n_n.rhsIdx (ix2 p q) ((contrEquiv1 dot_S1024x256_S256x64_S1024x64_1_0_0_1_n_n 256 rfl rfl).symm k) = ix2 k q := funext fun a => Fin.ext (by
    match a with
    | ⟨0, _⟩ => exact (rhsOut_0 _ _).trans hk
    | ⟨1, _⟩ => exact rhsOut_1 _ _)
  rw [el, er]

/-! ## A bias row spread over the block's rows, and the rectifier -/

/-- A vector of width `n` viewed as one row and repeated down `m` rows reads, at `(p, q)`, its entry `q`. -/
theorem biasRow_apply {m n : Nat} (b : FVec Ideal ⟨1, ![n]⟩ .f32) (h₁ : (⟨1, ![n]⟩ : Shape).ShapeCasts ⟨2, ![1, n]⟩)
    (h₂ : (⟨2, ![1, n]⟩ : Shape).Broadcasts ⟨2, ![m, n]⟩) (p : Fin m) (q : Fin n) :
    broadcastTo ⟨2, ![m, n]⟩ (shapeCast ⟨2, ![1, n]⟩ b h₁) h₂ (ix2 p q) = b (ix1 q) := by
  rw [broadcastTo_1b_ab_apply, shapeCast_a_1a_apply]

/-- The larger of an entry and the zero word spread over the block is the rectifier of that entry. -/
theorem rectify_apply {s : Shape} (v : FVec Ideal s .f32) (i : s.Idx) :
    maximumf v (broadcast s (Scalar.ofBits (F := Ideal) .f32 0x00000000#32)) i = Cert.Spec.relu (v i) := by
  show max (v i) (Ideal.ofBits .f32 0x00000000#32) = max (v i) 0
  rw [Ideal.ofBits_zero_f32]

/-! ## The three dense layers at an element -/

/-- The input layer before its rectifier, at `(p, q)`: the specification's affine layer of the operands read by
    coordinates. Both operands pass through a narrowing of the float format first, which is the identity here. -/
theorem denseIn_apply (X : FVec Ideal S1024x512 .f32) (W : FVec Ideal S512x256 .f32) (b : FVec Ideal S256 .f32)
    (hX hW : FTy.bits .bf16 < FTy.bits .f32) (h₁ : S256.ShapeCasts S1x256) (h₂ : S1x256.Broadcasts S1024x256)
    (p : Fin 1024) (q : Fin 256) :
    addf (matmul dot_S1024x512_S512x256_S1024x256_1_0_0_1_n_n none (truncf .bf16 X hX) (truncf .bf16 W hW) (constant (F := Ideal) S1024x256 .f32 0x00000000#32))
        (broadcastTo S1024x256 (shapeCast S1x256 b h₁) h₂) (ix2 p q)
      = Cert.Spec.affine (fun i k => X (ix2 i k)) (fun k j => W (ix2 k j)) (fun j => b (ix1 j)) p q := by
  rw [addf_apply, prodIn_apply, biasRow_apply]
  rfl

/-- The hidden layer before its rectifier, at `(p, q)`: the specification's affine layer of the operands read by
    coordinates. Both operands pass through a narrowing of the float format first, which is the identity here. -/
theorem denseMid_apply (X : FVec Ideal S1024x256 .f32) (W : FVec Ideal S256x256 .f32) (b : FVec Ideal S256 .f32)
    (hX hW : FTy.bits .bf16 < FTy.bits .f32) (h₁ : S256.ShapeCasts S1x256) (h₂ : S1x256.Broadcasts S1024x256)
    (p : Fin 1024) (q : Fin 256) :
    addf (matmul dot_S1024x256_S256x256_S1024x256_1_0_0_1_n_n none (truncf .bf16 X hX) (truncf .bf16 W hW) (constant (F := Ideal) S1024x256 .f32 0x00000000#32))
        (broadcastTo S1024x256 (shapeCast S1x256 b h₁) h₂) (ix2 p q)
      = Cert.Spec.affine (fun i k => X (ix2 i k)) (fun k j => W (ix2 k j)) (fun j => b (ix1 j)) p q := by
  rw [addf_apply, prodMid_apply, biasRow_apply]
  rfl

/-- The output layer before its rectifier, at `(p, q)`: the specification's affine layer of the operands read by
    coordinates. Both operands pass through a narrowing of the float format first, which is the identity here. -/
theorem denseOut_apply (X : FVec Ideal S1024x256 .f32) (W : FVec Ideal S256x64 .f32) (b : FVec Ideal S64 .f32)
    (hX hW : FTy.bits .bf16 < FTy.bits .f32) (h₁ : S64.ShapeCasts S1x64) (h₂ : S1x64.Broadcasts S1024x64)
    (p : Fin 1024) (q : Fin 64) :
    addf (matmul dot_S1024x256_S256x64_S1024x64_1_0_0_1_n_n none (truncf .bf16 X hX) (truncf .bf16 W hW) (constant (F := Ideal) S1024x64 .f32 0x00000000#32))
        (broadcastTo S1024x64 (shapeCast S1x64 b h₁) h₂) (ix2 p q)
      = Cert.Spec.affine (fun i k => X (ix2 i k)) (fun k j => W (ix2 k j)) (fun j => b (ix1 j)) p q := by
  rw [addf_apply, prodOut_apply, biasRow_apply]
  rfl

/-! ## The row sum, the column view and the square root at an element -/

/-- A sum along the rows of a 1024 by 64 block reads, at row `p`, the sum over the 64 columns of that row's entries. -/
theorem rowSum_apply (v : FVec Ideal S1024x64 .f32) (h : S1024x64.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ k : Fin 64, v (ix2 p k) := by
  refine (Ideal.multiReduction_add_single v _ h hφ hacc (ix1 p)).trans ?_
  refine Finset.sum_congr rfl fun k _ => congrArg v (funext fun a => Fin.ext ?_)
  match a with
  | ⟨0, _⟩ => rfl
  | ⟨1, _⟩ => rfl

/-- A vector of length `a` viewed as a column of `a` rows reads, at `(i, u)`, its entry `i`: the two positions in
    row-major order are `i` and `i * 1 + u` with `u = 0`. -/
theorem column_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A square root taken entry by entry. -/
theorem root_apply {s : Shape} (v : FVec Ideal s .f32) (i : s.Idx) : sqrt v i = Ideal.sqrt (v i) := rfl

/-! ## The two stored values -/

variable (x0 : Vec Ideal S1024x512 .f32) (x1 : Vec Ideal S512x256 .f32) (x2 : Vec Ideal S256 .f32)
  (x3 : Vec Ideal S256x256 .f32) (x4 : Vec Ideal S256 .f32) (x5 : Vec Ideal S256x64 .f32) (x6 : Vec Ideal S64 .f32)

/-- the block's embedding over coordinates -/
def blockEmbed : Fin 1024 → Fin 64 → EReal :=
  Cert.Spec.embed (fun i k => x0 (ix2 i k)) (fun k j => x1 (ix2 k j)) (fun j => x2 (ix1 j)) (fun k j => x3 (ix2 k j)) (fun j => x4 (ix1 j)) (fun k j => x5 (ix2 k j)) (fun j => x6 (ix1 j))

/-- The stored block of embedding rows at `(p, q)`: peel the output layer, then along row `p` the hidden layer under
    its rectifier, then along the same row the input layer under its rectifier. -/
theorem pay_embed (p : Fin 1024) (q : Fin 64) : k0_pay1 (F := Ideal) x0 x1 x2 x3 x4 x5 x6 (ix2 p q) = blockEmbed x0 x1 x2 x3 x4 x5 x6 p q := by
  unfold k0_pay1 blockEmbed Cert.Spec.embed
  refine (denseOut_apply _ _ _ _ _ _ _ p q).trans ?_
  refine Cert.Spec.affine_congr_row _ _ (fun l => ?_) q
  refine (rectify_apply _ _).trans (congrArg Cert.Spec.relu ?_)
  refine (denseMid_apply _ _ _ _ _ _ _ p l).trans ?_
  refine Cert.Spec.affine_congr_row _ _ (fun l' => ?_) l
  refine (rectify_apply _ _).trans (congrArg Cert.Spec.relu ?_)
  exact denseIn_apply _ _ _ _ _ _ _ p l'

/-- The stored column of row lengths at `(p, 0)`: the square root of the sum over row `p` of the squared entries of the
    embedding block. -/
theorem pay_norm (p : Fin 1024) : k0_pay2 (F := Ideal) x0 x1 x2 x3 x4 x5 x6 (ix2 p (0 : Fin 1)) = Cert.Spec.rowNorm (blockEmbed x0 x1 x2 x3 x4 x5 x6) p := by
  unfold k0_pay2 Cert.Spec.rowNorm
  refine (root_apply _ _).trans (congrArg Ideal.sqrt ?_)
  refine (column_apply _ _ p 0).trans ?_
  refine (rowSum_apply _ _ _ _ p).trans ?_
  refine Finset.sum_congr rfl fun k _ => ?_
  rw [mulf_apply, pay_embed]

end Cert.KernelIdeal.EncodePayload

end
-- ==== Proof.EncodeArrays.lean ====
/-
  From blocks to the arrays, for the encoder region.

  The region walks twelve blocks of 1024 rows.  At point `t` the feature window holds rows `1024 t …` of the feature
  array and the six weight and bias windows hold their whole arrays; the body stores the embedding of that block of
  rows and the lengths of its rows.  The encoder works row by row, so row `p` of what is stored at point `t` is row
  `1024 t + p` of the whole feature array's embedding, and likewise its length.  Every point writes its block back,
  block `t` of the output array, and the twelve blocks cover the array (row `r` lies in block `r / 1024`).  Hence after
  the region the two output arrays are the specification's embedding and row lengths of the arrays the region found.
-/
import proofs.«400617_j63574105915522_1_alg».proof.Proof.EncodeBody
import proofs.«400617_j63574105915522_1_alg».proof.Proof.EncodePayload
import proofs.«400617_j63574105915522_1_alg».proof.Proof.Spec
import Idealize.ShloMosaic.Lib.ValueIdx
import Idealize.ShloMosaic.Lib.Pipeline.Value

noncomputable section

namespace Cert.KernelIdeal.EncodeArrays

open Cert.KernelIdeal Cert.KernelIdeal.Gen Idealize.ShloMosaic Idealize.ShloMosaic.ValueIdx Idealize.ShloMosaic.TcCoe
open Idealize.ShloMosaic.Pipeline (Dat)

/-! ## One block of rows -/

/-- The offsets of a whole-buffer access, rank two and rank one, are the zero function. -/
theorem zeros2 : (![0, 0] : Fin 2 → Nat) = fun _ => 0 := funext fun a => by
  match a with | ⟨0, _⟩ => rfl | ⟨1, _⟩ => rfl
theorem zeros1 : (![0] : Fin 1 → Nat) = fun _ => 0 := funext fun a => by
  match a with | ⟨0, _⟩ => rfl

/-- The stored embedding block of a block of feature rows. If the feature block `b0` is rows `1024 r …` of the
    feature array `a0`, and the other six buffers hold the whole weight and bias arrays, then row `p` of the stored
    block is row `1024 r + p` of the whole array's embedding: the encoder reads the features only along the row. -/
theorem zBlock_rows (b0 : Vec Ideal S1024x512 .f32) (b1 : Vec Ideal S512x256 .f32) (b2 : Vec Ideal S256 .f32)
    (b3 : Vec Ideal S256x256 .f32) (b4 : Vec Ideal S256 .f32) (b5 : Vec Ideal S256x64 .f32) (b6 : Vec Ideal S64 .f32)
    (a0 : S12288x512.Idx → EReal) (r : Nat) (hr : r < 12)
    (h0 : ∀ (i : Fin 1024) (k : Fin 512), b0 (ix2 i k) = a0 (ix2 (⟨1024 * r + i.val, by omega⟩ : Fin 12288) k))
    (p : Fin 1024) (q : Fin 64) :
    Encode.zBlock b0 b1 b2 b3 b4 b5 b6 (ix2 p q) =
      Cert.Spec.embedOf a0 b1 b2 b3 b4 b5 b6 (⟨1024 * r + p.val, by omega⟩ : Fin 12288) q := by
  unfold Encode.zBlock
  rw [View.canon_unit_zero zeros2]
  simp only [View.ld_unit_zero (S := S1024x512) zeros2, View.ld_unit_zero (S := S512x256) zeros2,
    View.ld_unit_zero (S := S256) zeros1, View.ld_unit_zero (S := S256x256) zeros2,
    View.ld_unit_zero (S := S256x64) zeros2, View.ld_unit_zero (S := S64) zeros1]
  rw [EncodePayload.pay_embed]
  exact Cert.Spec.embed_congr_row _ _ _ _ _ _ (fun l => h0 p l) q

/-- Likewise the stored block of row lengths. -/
theorem nBlock_rows (b0 : Vec Ideal S1024x512 .f32) (b1 : Vec Ideal S512x256 .f32) (b2 : Vec Ideal S256 .f32)
    (b3 : Vec Ideal S256x256 .f32) (b4 : Vec Ideal S256 .f32) (b5 : Vec Ideal S256x64 .f32) (b6 : Vec Ideal S64 .f32)
    (a0 : S12288x512.Idx → EReal) (r : Nat) (hr : r < 12)
    (h0 : ∀ (i : Fin 1024) (k : Fin 512), b0 (ix2 i k) = a0 (ix2 (⟨1024 * r + i.val, by omega⟩ : Fin 12288) k))
    (p : Fin 1024) :
    Encode.nBlock b0 b1 b2 b3 b4 b5 b6 (ix2 p (0 : Fin 1)) =
      Cert.Spec.normOf a0 b1 b2 b3 b4 b5 b6 (⟨1024 * r + p.val, by omega⟩ : Fin 12288) := by
  unfold Encode.nBlock
  rw [View.canon_unit_zero zeros2]
  simp only [View.ld_unit_zero (S := S1024x512) zeros2, View.ld_unit_zero (S := S512x256) zeros2,
    View.ld_unit_zero (S := S256) zeros1, View.ld_unit_zero (S := S256x256) zeros2,
    View.ld_unit_zero (S := S256x64) zeros2, View.ld_unit_zero (S := S64) zeros1]
  rw [EncodePayload.pay_norm]
  exact Cert.Spec.rowNorm_congr_row fun k =>
    Cert.Spec.embed_congr_row _ _ _ _ _ _ (fun l => h0 p l) k

/-! ## The index maps over the grid -/

/-- The two output windows and the feature window move one block of rows per point and stay in the first block of
    columns; the weight and bias windows stay at block zero. -/
theorem index_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-! ## What the windows read at a point -/

variable (V : (c : Dev nD) → (b : Ref sig .tc) → Buf (Elt Ideal) ((c : Thread nD τ).loc b))

/-- The grid has twelve points. -/
theorem point_lt (t : Fin cfg0.N) : t.val < 12 := Nat.lt_of_lt_of_eq t.isLt N_0

/-- Row `i` of block `t` is a row of the array. -/
theorem row_lt (t : Fin cfg0.N) (i : Fin 1024) : 1024 * t.val + i.val < 12288 := by
  have := point_lt t; omega

/-- The whole embeddings array and the whole lengths array the region should leave, as functions of an index. -/
def zArr (c : Dev nD) : S12288x64.Idx → EReal := fun i =>
  Cert.Spec.embedOf (V c main_arg0) (V c main_arg2) (V c main_arg3) (V c main_arg4) (V c main_arg5) (V c main_arg6)
    (V c main_arg7) (i 0) (i 1)

def nArr (c : Dev nD) : S12288x1.Idx → EReal := fun i =>
  Cert.Spec.normOf (V c main_arg0) (V c main_arg2) (V c main_arg3) (V c main_arg4) (V c main_arg5) (V c main_arg6)
    (V c main_arg7) (i 0)

/-- The feature window's block at point `t` is rows `1024 t …` of the feature array. -/
theorem feature_rows (c : Dev nD) (t : Fin cfg0.N) (i : Fin 1024) (k : Fin 512) :
    (Encode.blk V c 0 t : Vec Ideal S1024x512 .f32) (ix2 i k) =
      (V c main_arg0 : S12288x512.Idx → EReal) (ix2 (⟨1024 * t.val + i.val, row_lt t i⟩ : Fin 12288) k) := by
  obtain ⟨e0, e1, -⟩ := index_facts t
  show (V c main_arg0 : S12288x512.Idx → EReal) (((cfg0.win 0).blk t).view.emb (ix2 i k)) = _
  refine congrArg _ (funext fun a => Fin.ext ?_)
  match a with
  | ⟨0, _⟩ => show win0_0.index t (0 : Fin 2) * 1024 + 1 * i.val = 1024 * t.val + i.val; omega
  | ⟨1, _⟩ => show win0_0.index t (1 : Fin 2) * 512 + 1 * k.val = k.val; omega

/-- The first layer's weight window is the whole array at every point. -/
theorem weights0_whole (c : Dev nD) (t : Fin cfg0.N) (y : S512x256.Idx) :
    (Encode.blk V c 1 t : Vec Ideal S512x256 .f32) y = (V c main_arg2 : S512x256.Idx → EReal) y := by
  obtain ⟨-, -, -, -, -, -, f10, f11, f2, f30, f31, f4, f50, f51, f6⟩ := index_facts t
  show (V c main_arg2 : S512x256.Idx → EReal) (((cfg0.win 1).blk t).view.emb y) = _
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 256 + 1 * (y 1).val = (y 1).val; omega

/-- Likewise the first bias. -/
theorem bias0_whole (c : Dev nD) (t : Fin cfg0.N) (y : S256.Idx) :
    (Encode.blk V c 2 t : Vec Ideal S256 .f32) y = (V c main_arg3 : S256.Idx → EReal) y := by
  obtain ⟨-, -, -, -, -, -, f10, f11, f2, f30, f31, f4, f50, f51, f6⟩ := index_facts t
  show (V c main_arg3 : S256.Idx → EReal) (((cfg0.win 2).blk t).view.emb y) = _
  refine congrArg _ (funext fun a => Fin.ext ?_)
  match a with
  | ⟨0, _⟩ => show win0_2.index t (0 : Fin 1) * 256 + 1 * (y 0).val = (y 0).val; omega

/-- Likewise the second layer's weights. -/
theorem weights1_whole (c : Dev nD) (t : Fin cfg0.N) (y : S256x256.Idx) :
    (Encode.blk V c 3 t : Vec Ideal S256x256 .f32) y = (V c main_arg4 : S256x256.Idx → EReal) y := by
  obtain ⟨-, -, -, -, -, -, f10, f11, f2, f30, f31, f4, f50, f51, f6⟩ := index_facts t
  show (V c main_arg4 : S256x256.Idx → EReal) (((cfg0.win 3).blk t).view.emb y) = _
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- Likewise the second bias. -/
theorem bias1_whole (c : Dev nD) (t : Fin cfg0.N) (y : S256.Idx) :
    (Encode.blk V c 4 t : Vec Ideal S256 .f32) y = (V c main_arg5 : S256.Idx → EReal) y := by
  obtain ⟨-, -, -, -, -, -, f10, f11, f2, f30, f31, f4, f50, f51, f6⟩ := index_facts t
  show (V c main_arg5 : S256.Idx → EReal) (((cfg0.win 4).blk t).view.emb y) = _
  refine congrArg _ (funext fun a => Fin.ext ?_)
  match a with
  | ⟨0, _⟩ => show win0_4.index t (0 : Fin 1) * 256 + 1 * (y 0).val = (y 0).val; omega

/-- Likewise the third layer's weights. -/
theorem weights2_whole (c : Dev nD) (t : Fin cfg0.N) (y : S256x64.Idx) :
    (Encode.blk V c 5 t : Vec Ideal S256x64 .f32) y = (V c main_arg6 : S256x64.Idx → EReal) y := by
  obtain ⟨-, -, -, -, -, -, f10, f11, f2, f30, f31, f4, f50, f51, f6⟩ := index_facts t
  show (V c main_arg6 : S256x64.Idx → EReal) (((cfg0.win 5).blk t).view.emb y) = _
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 64 + 1 * (y 1).val = (y 1).val; omega

/-- Likewise the third bias. -/
theorem bias2_whole (c : Dev nD) (t : Fin cfg0.N) (y : S64.Idx) :
    (Encode.blk V c 6 t : Vec Ideal S64 .f32) y = (V c main_arg7 : S64.Idx → EReal) y := by
  obtain ⟨-, -, -, -, -, -, f10, f11, f2, f30, f31, f4, f50, f51, f6⟩ := index_facts t
  show (V c main_arg7 : S64.Idx → EReal) (((cfg0.win 6).blk t).view.emb y) = _
  refine congrArg _ (funext fun a => Fin.ext ?_)
  match a with
  | ⟨0, _⟩ => show win0_6.index t (0 : Fin 1) * 64 + 1 * (y 0).val = (y 0).val; omega

/-! ## What a point writes back -/

/-- Point `t` writes, at `(p, q)` of its embedding block, the whole array's embedding at row `1024 t + p`. -/
theorem flushed_z_at (c : Dev nD) (t : Fin cfg0.N) (p : Fin 1024) (q : Fin 64) :
    ((Encode.dat V c).flushed 7 t : Vec Ideal S1024x64 .f32) (ix2 p q) =
      zArr V c (ix2 (⟨1024 * t.val + p.val, row_lt t p⟩ : Fin 12288) q) := by
  show ((Encode.dat V c).after 7 t : Vec Ideal S1024x64 .f32) (ix2 p q) = _
  rw [Encode.after_7]
  have b1 : (Encode.blk V c 1 t : Vec Ideal S512x256 .f32) = V c main_arg2 := funext (weights0_whole V c t)
  have b2 : (Encode.blk V c 2 t : Vec Ideal S256 .f32) = V c main_arg3 := funext (bias0_whole V c t)
  have b3 : (Encode.blk V c 3 t : Vec Ideal S256x256 .f32) = V c main_arg4 := funext (weights1_whole V c t)
  have b4 : (Encode.blk V c 4 t : Vec Ideal S256 .f32) = V c main_arg5 := funext (bias1_whole V c t)
  have b5 : (Encode.blk V c 5 t : Vec Ideal S256x64 .f32) = V c main_arg6 := funext (weights2_whole V c t)
  have b6 : (Encode.blk V c 6 t : Vec Ideal S64 .f32) = V c main_arg7 := funext (bias2_whole V c t)
  rw [b1, b2, b3, b4, b5, b6]
  exact zBlock_rows (Encode.blk V c 0 t) (V c main_arg2) (V c main_arg3) (V c main_arg4) (V c main_arg5)
    (V c main_arg6) (V c main_arg7) (V c main_arg0) t.val (point_lt t) (feature_rows V c t) p q

/-- Likewise the lengths block: at `(p, 0)` the whole array's length of row `1024 t + p`. -/
theorem flushed_n_at (c : Dev nD) (t : Fin cfg0.N) (p : Fin 1024) :
    ((Encode.dat V c).flushed 8 t : Vec Ideal S1024x1 .f32) (ix2 p (0 : Fin 1)) =
      nArr V c (ix2 (⟨1024 * t.val + p.val, row_lt t p⟩ : Fin 12288) (0 : Fin 1)) := by
  show ((Encode.dat V c).after 8 t : Vec Ideal S1024x1 .f32) (ix2 p (0 : Fin 1)) = _
  rw [Encode.after_8]
  have b1 : (Encode.blk V c 1 t : Vec Ideal S512x256 .f32) = V c main_arg2 := funext (weights0_whole V c t)
  have b2 : (Encode.blk V c 2 t : Vec Ideal S256 .f32) = V c main_arg3 := funext (bias0_whole V c t)
  have b3 : (Encode.blk V c 3 t : Vec Ideal S256x256 .f32) = V c main_arg4 := funext (weights1_whole V c t)
  have b4 : (Encode.blk V c 4 t : Vec Ideal S256 .f32) = V c main_arg5 := funext (bias1_whole V c t)
  have b5 : (Encode.blk V c 5 t : Vec Ideal S256x64 .f32) = V c main_arg6 := funext (weights2_whole V c t)
  have b6 : (Encode.blk V c 6 t : Vec Ideal S64 .f32) = V c main_arg7 := funext (bias2_whole V c t)
  rw [b1, b2, b3, b4, b5, b6]
  exact nBlock_rows (Encode.blk V c 0 t) (V c main_arg2) (V c main_arg3) (V c main_arg4) (V c main_arg5)
    (V c main_arg6) (V c main_arg7) (V c main_arg0) t.val (point_lt t) (feature_rows V c t) p

/-- Where block `t` of the embeddings array sits: its `(p, q)` is the array's `(1024 t + p, q)`. -/
theorem z_block_at (t : Fin cfg0.N) (G : S12288x64.Idx → EReal) (p : Fin 1024) (q : Fin 64) :
    (((cfg0.win 7).blk t).view.read (Elt Ideal) G : Vec Ideal S1024x64 .f32) (ix2 p q) =
      G (ix2 (⟨1024 * t.val + p.val, row_lt t p⟩ : Fin 12288) q) := by
  obtain ⟨-, -, e0, e1, -⟩ := index_facts t
  show G (((cfg0.win 7).blk t).view.emb (ix2 p q)) = _
  refine congrArg _ (funext fun a => Fin.ext ?_)
  match a with
  | ⟨0, _⟩ => show win0_7.index t (0 : Fin 2) * 1024 + 1 * p.val = 1024 * t.val + p.val; omega
  | ⟨1, _⟩ => show win0_7.index t (1 : Fin 2) * 64 + 1 * q.val = q.val; omega

/-- and block `t` of the lengths array: its `(p, 0)` is the array's `(1024 t + p, 0)`. -/
theorem n_block_at (t : Fin cfg0.N) (G : S12288x1.Idx → EReal) (p : Fin 1024) (z : Fin 1) :
    (((cfg0.win 8).blk t).view.read (Elt Ideal) G : Vec Ideal S1024x1 .f32) (ix2 p z) =
      G (ix2 (⟨1024 * t.val + p.val, row_lt t p⟩ : Fin 12288) z) := by
  obtain ⟨-, -, -, -, e0, e1, -⟩ := index_facts t
  show G (((cfg0.win 8).blk t).view.emb (ix2 p z)) = _
  refine congrArg _ (funext fun a => Fin.ext ?_)
  match a with
  | ⟨0, _⟩ => show win0_8.index t (0 : Fin 2) * 1024 + 1 * p.val = 1024 * t.val + p.val; omega
  | ⟨1, _⟩ => show win0_8.index t (1 : Fin 2) * 1 + 1 * z.val = z.val; omega

/-- What point `t` writes back to the embeddings array is block `t` of the whole-array function. -/
theorem flushed_z_eq (c : Dev nD) (t : Fin cfg0.N) :
    (Encode.dat V c).flushed 7 t = ((cfg0.win 7).blk t).view.read (Elt Ideal) (zArr V c) := by
  refine funext fun (j : S1024x64.Idx) => ?_
  obtain ⟨p, q, rfl⟩ : ∃ (p : Fin 1024) (q : Fin 64), j = ix2 p q := ⟨j 0, j 1, eq_ix2 j⟩
  exact (flushed_z_at V c t p q).trans (z_block_at t (zArr V c) p q).symm

/-- and to the lengths array, block `t` of its whole-array function. -/
theorem flushed_n_eq (c : Dev nD) (t : Fin cfg0.N) :
    (Encode.dat V c).flushed 8 t = ((cfg0.win 8).blk t).view.read (Elt Ideal) (nArr V c) := by
  refine funext fun (j : S1024x1.Idx) => ?_
  obtain ⟨p, z, rfl⟩ : ∃ (p : Fin 1024) (z : Fin 1), j = ix2 p z := ⟨j 0, j 1, eq_ix2 j⟩
  obtain rfl : z = 0 := Subsingleton.elim _ _
  exact (flushed_n_at V c t p).trans (n_block_at t (nArr V c) p 0).symm

/-! ## The blocks cover the arrays -/

/-- Row `r` of the embeddings array lies in the block of point `r / 1024`, which is written back. -/
theorem z_cover (i : S12288x64.Idx) :
    ∃ t : Fin cfg0.N, (cfg0.win 7).flush t = true ∧ i ∈ ((cfg0.win 7).blk t).view.set := by
  have hi0 : (i 0).val < 12288 := (i 0).isLt
  have hi1 : (i 1).val < 64 := (i 1).isLt
  obtain ⟨t, ht⟩ : ∃ t : Fin cfg0.N, t.val = (i 0).val / 1024 :=
    ⟨⟨(i 0).val / 1024, by rw [show cfg0.N = 12 from N_0]; omega⟩, rfl⟩
  obtain ⟨-, -, e0, e1, -⟩ := index_facts t
  refine ⟨t, flush0_7 t, ?_⟩
  show i ∈ ((View.whole main_v0_0).slice (win0_7.rect t)).set
  rw [View.set_slice_whole, Rect.mem_set_unit]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 64 ≤ (i 1).val ∧ (i 1).val < win0_7.index t (1 : Fin 2) * 64 + 64
    omega

/-- Likewise the lengths array. -/
theorem n_cover (i : S12288x1.Idx) :
    ∃ t : Fin cfg0.N, (cfg0.win 8).flush t = true ∧ i ∈ ((cfg0.win 8).blk t).view.set := by
  have hi0 : (i 0).val < 12288 := (i 0).isLt
  have hi1 : (i 1).val < 1 := (i 1).isLt
  obtain ⟨t, ht⟩ : ∃ t : Fin cfg0.N, t.val = (i 0).val / 1024 :=
    ⟨⟨(i 0).val / 1024, by rw [show cfg0.N = 12 from N_0]; omega⟩, rfl⟩
  obtain ⟨-, -, -, -, e0, e1, -⟩ := index_facts t
  refine ⟨t, flush0_8 t, ?_⟩
  show i ∈ ((View.whole main_v0_1).slice (win0_8.rect t)).set
  rw [View.set_slice_whole, Rect.mem_set_unit]
  intro a
  match a with
  | ⟨0, _⟩ =>
    show win0_8.index t (0 : Fin 2) * 1024 ≤ (i 0).val ∧ (i 0).val < win0_8.index t (0 : Fin 2) * 1024 + 1024
    omega
  | ⟨1, _⟩ =>
    show win0_8.index t (1 : Fin 2) * 1 ≤ (i 1).val ∧ (i 1).val < win0_8.index t (1 : Fin 2) * 1 + 1
    omega

/-! ## The arrays after the region -/

/-- Every point writes its block of the whole-array function and the blocks cover the array, so the embeddings array
    ends holding that function, -/
theorem z_array (c : Dev nD) : (Encode.dat V c).arrAt 7 cfg0.N = zArr V c :=
  (Encode.dat V c).arrAt_eq_of_cover 7 (zArr V c) (fun t _ => flushed_z_eq V c t) z_cover

/-- and the lengths array its own. -/
theorem n_array (c : Dev nD) : (Encode.dat V c).arrAt 8 cfg0.N = nArr V c :=
  (Encode.dat V c).arrAt_eq_of_cover 8 (nArr V c) (fun t _ => flushed_n_eq V c t) n_cover

/-- After the encoder region the embeddings array, at `(p, q)`, is the specification's embedding of the region-entry
    contents of the seven float arguments. -/
theorem z_apply (c : Dev nD) (p : Fin 12288) (q : Fin 64) :
    (Cert.KernelIdeal.Encode.dat V c).arrAt 7 cfg0.N (ix2 p q) =
      Cert.Spec.embedOf (V c main_arg0) (V c main_arg2) (V c main_arg3) (V c main_arg4) (V c main_arg5) (V c main_arg6)
        (V c main_arg7) p q :=
  congrFun (z_array V c) (ix2 p q)

/-- and the lengths array, at `(p, 0)`, the specification's length of row `p`. -/
theorem n_apply (c : Dev nD) (p : Fin 12288) :
    (Cert.KernelIdeal.Encode.dat V c).arrAt 8 cfg0.N (ix2 p (0 : Fin 1)) =
      Cert.Spec.normOf (V c main_arg0) (V c main_arg2) (V c main_arg3) (V c main_arg4) (V c main_arg5) (V c main_arg6)
        (V c main_arg7) p :=
  congrFun (n_array V c) (ix2 p (0 : Fin 1))

end Cert.KernelIdeal.EncodeArrays

end
-- ==== Proof.PairsPayload.lean ====
/-
  The all-pairs block, read at one entry.

  One grid step of the second kernel holds two blocks of 1024 embedding rows, the lengths of the first block's rows
  as a column and the lengths of the second block's rows as a row, and stores a 1024 x 1024 block. Over the extended
  reals, where a change of float format is the identity and the product of the two blocks is an exact finite sum,
  the stored entry (p, q) is the logistic function of the inner product of row p of the first block with row q of
  the second, divided by the product of the two rows' lengths kept from below by the floor.
-/
import proofs.«400617_j63574105915522_1_alg».proof.Proof.Gen.KernelIdeal.Skeleton
import proofs.«400617_j63574105915522_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PairsPayload

open Idealize.ShloMosaic Idealize.ShloMosaic.ValueIdx Cert.KernelIdeal Cert.KernelIdeal.Gen

/-! ## Which entries of the two blocks the product reads

The product contracts the second axis of BOTH blocks: at output entry `i` and contraction position `c` the left block
is read at row `i 0`, column `c`, and the right block at row `i 1`, column `c`. -/

/-- The left block's row is the output's row. -/
theorem left_row (i : S1024x1024.Idx) (c : dot_S1024x64_S1024x64_S1024x1024_1_1_0_0_n_n.contr.Idx) :
    (dot_S1024x64_S1024x64_S1024x1024_1_1_0_0_n_n.lhsIdx i c 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl

/-- The left block's column is the contraction position. -/
theorem left_col (i : S1024x1024.Idx) (c : dot_S1024x64_S1024x64_S1024x1024_1_1_0_0_n_n.contr.Idx) :
    (dot_S1024x64_S1024x64_S1024x1024_1_1_0_0_n_n.lhsIdx i c 1).val = (c ⟨0, by decide⟩).val :=
  dot_S1024x64_S1024x64_S1024x1024_1_1_0_0_n_n.lhsIdx_val_of_single rfl i c

/-- The right block's row is the output's column. -/
theorem right_row (i : S1024x1024.Idx) (c : dot_S1024x64_S1024x64_S1024x1024_1_1_0_0_n_n.contr.Idx) :
    (dot_S1024x64_S1024x64_S1024x1024_1_1_0_0_n_n.rhsIdx i c 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl

/-- The right block's column is the contraction position. -/
theorem right_col (i : S1024x1024.Idx) (c : dot_S1024x64_S1024x64_S1024x1024_1_1_0_0_n_n.contr.Idx) :
    (dot_S1024x64_S1024x64_S1024x1024_1_1_0_0_n_n.rhsIdx i c 1).val = (c ⟨0, by decide⟩).val :=
  dot_S1024x64_S1024x64_S1024x1024_1_1_0_0_n_n.rhsIdx_val_of_single rfl i c

/-- The product of the two blocks into a zero block, at entry (p, q): the inner product of row p with row q. -/
theorem gram_apply (a b : FVec Ideal S1024x64 .bf16) (p q : Fin 1024) :
    matmul dot_S1024x64_S1024x64_S1024x1024_1_1_0_0_n_n none a b (constant (F := Ideal) S1024x1024 .f32 0x00000000#32) (ix2 p q)
      = ∑ k : Fin 64, a (ix2 p k) * b (ix2 q k) := by
  simp only [matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k :=
    funext fun ax => Fin.ext (by
      match ax with
      | ⟨0, _⟩ => exact left_row _ _
      | ⟨1, _⟩ => exact (left_col _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k :=
    funext fun ax => Fin.ext (by
      match ax with
      | ⟨0, _⟩ => exact right_row _ _
      | ⟨1, _⟩ => exact (right_col _ _).trans hk)
  rw [el, er]

/-! ## A column spread over the columns -/

/-- An `[a, 1]` array broadcast to `[a, b]` reads, at `(r, c)`, the operand's one column at `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## The stored entry -/

/-- The stored block at entry (p, q): the logistic function of the inner product of row p of the first block with
    row q of the second, over the product of the two rows' lengths kept from below by the floor. -/
theorem pay_score (zi zj : Vec Ideal S1024x64 .f32) (ni : Vec Ideal S1024x1 .f32) (nj : Vec Ideal S1x1024 .f32) (p q : Fin 1024) :
    k1_pay1 (F := Ideal) zi zj ni nj (ix2 p q)
      = Ideal.logistic (Ideal.div (∑ k : Fin 64, zi (ix2 p k) * zj (ix2 q k))
          (max (ni (ix2 p (0 : Fin 1)) * nj (ix2 (0 : Fin 1) q)) Cert.Spec.eps)) := by
  unfold k1_pay1
  -- the casts of a shape to itself drop out
  simp only [shapeCast_self]
  -- the pointwise operations, read at the entry
  show Ideal.logistic (Ideal.div
      (matmul dot_S1024x64_S1024x64_S1024x1024_1_1_0_0_n_n none (truncf .bf16 zi bitsLt_bf16_f32) (truncf .bf16 zj bitsLt_bf16_f32)
        (constant (F := Ideal) S1024x1024 .f32 0x00000000#32) (ix2 p q))
      (max (broadcastTo S1024x1024 ni broadcasts_S1024x1_S1024x1024 (ix2 p q)
          * broadcastTo S1024x1024 nj broadcasts_S1x1024_S1024x1024 (ix2 p q))
        (Ideal.ofBits .f32 0x322BCC77#32))) = _
  -- the product is the rows' inner product; the column of lengths is read at the row, the row of lengths at the column
  rw [gram_apply, broadcastTo_a1_ab_apply, broadcastTo_1b_ab_apply]
  -- the change of format is the identity, and the floor is the word the specification names
  simp only [truncf_apply]
  unfold Cert.Spec.eps
  rfl

end Cert.KernelIdeal.PairsPayload

end
-- ==== Proof.PairsArrays.lean ====
/-
  From tiles to the score matrix: what the all-pairs region leaves in its result array.

  The region walks a 12 × 12 grid. Grid point `t` has row number `t / 12` and column number `t % 12`; it holds rows
  `(t / 12) * 1024 …` of the embeddings and of the column of lengths, rows `(t % 12) * 1024 …` of the embeddings
  again and of the row of lengths, and writes back the 1024 × 1024 tile of scores at block position
  `(t / 12, t % 12)`. Each tile entry is the score of the two array rows it stands for, so every tile written back is a
  block of ONE matrix, the matrix of all scores; the 144 tiles fill the 12288 × 12288 array, so after the region the
  array is that matrix.
-/
import proofs.«400617_j63574105915522_1_alg».proof.Proof.PairsBody
import proofs.«400617_j63574105915522_1_alg».proof.Proof.PairsPayload
import proofs.«400617_j63574105915522_1_alg».proof.Proof.Spec
import Idealize.ShloMosaic.Lib.Pipeline.Value
import Idealize.ShloMosaic.Lib.ValueIdx

set_option maxRecDepth 16384

noncomputable section

namespace Cert.KernelIdeal.PairsArrays

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## Where the blocks sit -/

/-- The zero offsets, as the constant function. -/
theorem zero_off : (![0, 0] : Fin 2 → Nat) = fun _ => 0 := funext fun a => by fin_cases a <;> rfl

/-- Where each window sits at grid point `t`: the point's row number is `t / 12` and its column number `t % 12`. -/
theorem where_blocks : ∀ t : Fin cfg1.N,
    (win1_4.index t (0 : Fin 2) = t.val / 12 ∧ win1_4.index t (1 : Fin 2) = t.val % 12)
    ∧ (win1_0.index t (0 : Fin 2) = t.val / 12 ∧ win1_0.index t (1 : Fin 2) = 0)
    ∧ (win1_1.index t (0 : Fin 2) = t.val % 12 ∧ win1_1.index t (1 : Fin 2) = 0)
    ∧ (win1_2.index t (0 : Fin 2) = t.val / 12 ∧ win1_2.index t (1 : Fin 2) = 0)
    ∧ (win1_3.index t (0 : Fin 2) = 0 ∧ win1_3.index t (1 : Fin 2) = t.val % 12) :=
  (by decide +kernel : ∀ t : Fin grid1.N, _)

/-- The embeddings' row block of the point's ROW number: its row `r` is row `(t / 12) * 1024 + r` of the array. -/
theorem rows_of_i (c : Dev nD) (t : Fin cfg1.N) (r : Fin 1024) (k : Fin 64) (P : Fin 12288)
    (hP : P.val = t.val / 12 * 1024 + r.val) :
    (Pairs.blk V c 0 t : Vec Ideal S1024x64 .f32) (ix2 r k) = (V c main_v0_0 : S12288x64.Idx → EReal) (ix2 P k) := by
  obtain ⟨-, ⟨e0, e1⟩, -⟩ := where_blocks t
  unfold Pairs.blk
  rw [View.read_apply]
  show V c main_v0_0 _ = V c main_v0_0 _
  congr 1
  funext a
  apply Fin.ext
  match a with
  | ⟨0, _⟩ => show win1_0.index t (0 : Fin 2) * 1024 + 1 * r.val = P.val; omega
  | ⟨1, _⟩ => show win1_0.index t (1 : Fin 2) * 64 + 1 * k.val = k.val; omega

/-- The embeddings' row block of the point's COLUMN number: its row `s` is row `(t % 12) * 1024 + s` of the array. -/
theorem rows_of_j (c : Dev nD) (t : Fin cfg1.N) (s : Fin 1024) (k : Fin 64) (Q : Fin 12288)
    (hQ : Q.val = t.val % 12 * 1024 + s.val) :
    (Pairs.blk V c 1 t : Vec Ideal S1024x64 .f32) (ix2 s k) = (V c main_v0_0 : S12288x64.Idx → EReal) (ix2 Q k) := by
  obtain ⟨-, -, ⟨e0, e1⟩, -⟩ := where_blocks t
  unfold Pairs.blk
  rw [View.read_apply]
  show V c main_v0_0 _ = V c main_v0_0 _
  congr 1
  funext a
  apply Fin.ext
  match a with
  | ⟨0, _⟩ => show win1_1.index t (0 : Fin 2) * 1024 + 1 * s.val = Q.val; omega
  | ⟨1, _⟩ => show win1_1.index t (1 : Fin 2) * 64 + 1 * k.val = k.val; omega

/-- The lengths' column block of the point's row number: its entry `r` is the length of row `(t / 12) * 1024 + r`. -/
theorem lengths_of_i (c : Dev nD) (t : Fin cfg1.N) (r : Fin 1024) (P : Fin 12288)
    (hP : P.val = t.val / 12 * 1024 + r.val) :
    (Pairs.blk V c 2 t : Vec Ideal S1024x1 .f32) (ix2 r (0 : Fin 1))
      = (V c main_v0_1 : S12288x1.Idx → EReal) (ix2 P (0 : Fin 1)) := by
  obtain ⟨-, -, -, ⟨e0, e1⟩, -⟩ := where_blocks t
  unfold Pairs.blk
  rw [View.read_apply]
  show V c main_v0_1 _ = V c main_v0_1 _
  congr 1
  funext a
  apply Fin.ext
  match a with
  | ⟨0, _⟩ => show win1_2.index t (0 : Fin 2) * 1024 + 1 * r.val = P.val; omega
  | ⟨1, _⟩ => show win1_2.index t (1 : Fin 2) * 1 + 1 * (0 : Fin 1).val = (0 : Fin 1).val; omega

/-- The lengths' row block of the point's column number: its entry `s` is the length of row `(t % 12) * 1024 + s`. -/
theorem lengths_of_j (c : Dev nD) (t : Fin cfg1.N) (s : Fin 1024) (Q : Fin 12288)
    (hQ : Q.val = t.val % 12 * 1024 + s.val) :
    (Pairs.blk V c 3 t : Vec Ideal S1x1024 .f32) (ix2 (0 : Fin 1) s)
      = (V c main_v1 : S1x12288.Idx → EReal) (ix2 (0 : Fin 1) Q) := by
  obtain ⟨-, -, -, -, ⟨e0, e1⟩⟩ := where_blocks t
  unfold Pairs.blk
  rw [View.read_apply]
  show V c main_v1 _ = V c main_v1 _
  congr 1
  funext a
  apply Fin.ext
  match a with
  | ⟨0, _⟩ => show win1_3.index t (0 : Fin 2) * 1 + 1 * (0 : Fin 1).val = (0 : Fin 1).val; omega
  | ⟨1, _⟩ => show win1_3.index t (1 : Fin 2) * 1024 + 1 * s.val = Q.val; omega

/-! ## The score matrix, off the three arrays -/

/-- The whole score matrix, entry by entry: the score of the pair of rows the entry's two coordinates name, the
    first length read from the column array and the second from the row array. -/
def scores (c : Dev nD) : S12288x12288.Idx → EReal :=
  fun i => Cert.Spec.scoreAt (V c main_v0_0) (V c main_v0_1) (V c main_v1) (i 0) (i 1)

/-- Entry `(r, s)` of the tile stored at point `t` is the score of rows `(t / 12) * 1024 + r` and `(t % 12) * 1024 + s`. -/
theorem tile_entry (c : Dev nD) (t : Fin cfg1.N) (r s : Fin 1024) (P Q : Fin 12288)
    (hP : P.val = t.val / 12 * 1024 + r.val) (hQ : Q.val = t.val % 12 * 1024 + s.val) :
    k1_pay1 (F := Ideal) (Pairs.blk V c 0 t) (Pairs.blk V c 1 t) (Pairs.blk V c 2 t) (Pairs.blk V c 3 t) (ix2 r s)
      = Cert.Spec.scoreAt (V c main_v0_0) (V c main_v0_1) (V c main_v1) P Q := by
  refine (PairsPayload.pay_score (Pairs.blk V c 0 t) (Pairs.blk V c 1 t) (Pairs.blk V c 2 t) (Pairs.blk V c 3 t) r s).trans ?_
  unfold Cert.Spec.scoreAt
  rw [lengths_of_i V c t r P hP, lengths_of_j V c t s Q hQ]
  refine congrArg (fun x => Ideal.logistic (Ideal.div x _)) ?_
  exact Finset.sum_congr rfl fun k _ => by rw [rows_of_i V c t r k P hP, rows_of_j V c t s k Q hQ]

/-- What point `t` writes back is its block of the score matrix. -/
theorem written_block (c : Dev nD) (t : Fin cfg1.N) :
    (Pairs.dat V c).flushed 4 t = ((cfg1.win 4).blk t).view.read (Elt Ideal) (scores V c) := by
  show (cfg1.win 4).cut (grid1.coords t) ((Pairs.dat V c).after 4 t) = _
  rw [Pairs.after_4]
  unfold Pairs.tile
  rw [View.canon_unit_zero zero_off]
  simp only [View.ld_unit_zero (S := S1024x64) zero_off, View.ld_unit_zero (S := S1024x1) zero_off, View.ld_unit_zero (S := S1x1024) zero_off]
  obtain ⟨⟨e0, e1⟩, -⟩ := where_blocks t
  funext y
  obtain ⟨r, s, rfl⟩ : ∃ (r s : Fin 1024), y = ix2 r s := ⟨y 0, y 1, eq_ix2 y⟩
  rw [View.read_apply]
  show k1_pay1 (F := Ideal) (Pairs.blk V c 0 t) (Pairs.blk V c 1 t) (Pairs.blk V c 2 t) (Pairs.blk V c 3 t) (ix2 r s)
    = scores V c (((cfg1.win 4).blk t).view.emb (ix2 r s))
  refine tile_entry V c t r s _ _ ?_ ?_
  · show win1_4.index t (0 : Fin 2) * 1024 + 1 * r.val = _; omega
  · show win1_4.index t (1 : Fin 2) * 1024 + 1 * s.val = _; omega

/-! ## The tiles fill the matrix -/

/-- An entry is in point `t`'s tile exactly when each coordinate is within the tile's 1024 on that axis. -/
theorem in_tile_iff (t : Fin cfg1.N) (i : S12288x12288.Idx) :
    i ∈ ((cfg1.win 4).blk t).view.set ↔
      (win1_4.index t (0 : Fin 2) * 1024 ≤ (i 0).val ∧ (i 0).val < win1_4.index t (0 : Fin 2) * 1024 + 1024)
      ∧ (win1_4.index t (1 : Fin 2) * 1024 ≤ (i 1).val ∧ (i 1).val < win1_4.index t (1 : Fin 2) * 1024 + 1024) := by
  show i ∈ ((View.whole main_v2).slice (win1_4.rect t)).set ↔ _
  rw [View.set_slice_whole, Rect.mem_set_unit]
  constructor
  · intro h
    exact ⟨h 0, h 1⟩
  · intro h a
    match a with
    | ⟨0, _⟩ => exact h.1
    | ⟨1, _⟩ => exact h.2

/-- Every entry `(P, Q)` lies in the tile of the point with row number `P / 1024` and column number `Q / 1024`,
    and every point writes its tile back. -/
theorem tiles_cover (i : S12288x12288.Idx) :
    ∃ t : Fin cfg1.N, (cfg1.win 4).flush t = true ∧ i ∈ ((cfg1.win 4).blk t).view.set := by
  have h0 : (i 0).val < 12288 := (i 0).isLt
  have h1 : (i 1).val < 12288 := (i 1).isLt
  have hN : cfg1.N = 144 := N_1
  obtain ⟨t, ht⟩ : ∃ t : Fin cfg1.N, t.val = (i 0).val / 1024 * 12 + (i 1).val / 1024 :=
    ⟨⟨(i 0).val / 1024 * 12 + (i 1).val / 1024, by rw [hN]; omega⟩, rfl⟩
  obtain ⟨⟨e0, e1⟩, -⟩ := where_blocks t
  refine ⟨t, flush1_4 t, ?_⟩
  rw [in_tile_iff]
  omega

/-! ## The array after the region -/

/-- After the all-pairs region the score matrix holds, at `(p, q)`, the score of rows `p` and `q` of the arrays
    as the region found them. -/
theorem s_apply (c : Dev nD) (p q : Fin 12288) :
    (Cert.KernelIdeal.Pairs.dat V c).arrAt 4 cfg1.N (ix2 p q)
      = Cert.Spec.scoreAt (V c main_v0_0) (V c main_v0_1) (V c main_v1) p q :=
  congrFun ((Pairs.dat V c).arrAt_eq_of_cover 4 (scores V c) (fun t _ => written_block V c t) tiles_cover) (ix2 p q)

end Cert.KernelIdeal.PairsArrays

end
-- ==== Proof.Agree.lean ====
/-
  The two programs agree.

  Both programs are read against one specification over plain coordinates.  The reference's score stage at (p, q) is
  the specification's score of the embedding and of the row lengths of its seven float arguments.  The kernel program's
  score matrix at (p, q) is the same expression read off three arrays: the embeddings array the first launch wrote,
  the lengths as the column that launch wrote, and the lengths as the row the host reshaped that column into.  The
  embeddings array at (p, k) is the specification's embedding of the launch arguments, the column at (p, 0) the
  specification's row length, and the row at (0, q) is the column at (q, 0): a reshape keeps the row-major position,
  and both positions are q.  When the two memories hold the same eight arguments the two score expressions are
  therefore the same term.

  The edge loss is, on either side, one function of three arrays: an embeddings array, a flat array of lengths and the
  integer array of edges.  The reference applies it to its embedding stage, its length stage and its own edge argument;
  the kernel program, once every edge end is known to be a row number (which the precondition says), applies it to the
  array the first launch wrote, to that launch's column of lengths flattened, and to its edge argument.  The three
  arguments are equal array by array (the flattened column at p is the column at (p, 0)), so the two losses are equal.
-/
import proofs.«400617_j63574105915522_1_alg».proof.Defs
import proofs.«400617_j63574105915522_1_alg».proof.Proof.Launch
import proofs.«400617_j63574105915522_1_alg».proof.Proof.RefValue
import proofs.«400617_j63574105915522_1_alg».proof.Proof.LossChain
import proofs.«400617_j63574105915522_1_alg».proof.Proof.Gen.ReferenceIdeal.Run
import proofs.«400617_j63574105915522_1_alg».proof.Proof.Gen.ReferenceIdeal.Read
import proofs.«400617_j63574105915522_1_alg».proof.Proof.Gen.Pre_finite_inputs
import proofs.«400617_j63574105915522_1_alg».proof.Proof.IndexRange
import proofs.«400617_j63574105915522_1_alg».proof.Proof.Spec
import proofs.«400617_j63574105915522_1_alg».proof.Proof.EncodeArrays
import proofs.«400617_j63574105915522_1_alg».proof.Proof.PairsArrays
import proofs.«400617_j63574105915522_1_alg».proof.Proof.EdgeLoss
import Idealize.ShloMosaic.Lib.Pipeline.Value
import Idealize.ShloMosaic.Lib.ValueIdx

noncomputable section

namespace Cert.Proof.Agree

open Idealize.ShloMosaic Idealize.ShloMosaic.ValueIdx Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same eight argument arrays, on every core. -/
def Agrees : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-! ## What the first launch leaves, read at coordinates -/

section Kernel

open Cert.KernelIdeal Cert.KernelIdeal.Gen Cert.KernelIdeal.WholeRun

/-- The embeddings array after the first launch, at (p, k): the specification's embedding of the launch arguments. -/
theorem zArr_apply (c : Dev nD) (p : Fin 12288) (k : Fin 64) :
    zArr m c (ix2 p k) = Cert.Spec.embedOf (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) p k :=
  Cert.KernelIdeal.EncodeArrays.z_apply (Vin0 m) c p k

/-- The column of lengths after the first launch, at (p, 0): the specification's length of row p. -/
theorem nArr_apply (c : Dev nD) (p : Fin 12288) :
    nArr m c (ix2 p (0 : Fin 1)) = Cert.Spec.normOf (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) p :=
  Cert.KernelIdeal.EncodeArrays.n_apply (Vin0 m) c p

/-- The row of lengths the second launch reads is the first launch's column reshaped, -/
theorem W2_row (c : Dev nD) :
    W2 m c main_v1 = shapeCast S1x12288 (nArr m c) shapeCasts_S12288x1_S1x12288 := by
  rw [← V2_eq, Cert.KernelIdeal.EdgeLoss.V2_main_v1, outs_n]

/-- so at (0, q) it holds the column's entry (q, 0): both sit at row-major position q. -/
theorem W2_row_apply (c : Dev nD) (q : Fin 12288) :
    W2 m c main_v1 (ix2 (0 : Fin 1) q) = nArr m c (ix2 q (0 : Fin 1)) := by
  rw [W2_row]
  refine shapeCast_apply _ _ _ _ ?_
  show (S12288x1.rowMajor (ix2 q (0 : Fin 1))).val = (S1x12288.rowMajor (ix2 (0 : Fin 1) q)).val
  rw [Shape.rowMajor_val_two, Shape.rowMajor_val_two]
  show q.val * 1 + 0 = 0 * 12288 + q.val
  omega

/-- The column of lengths flattened holds at p the column's entry (p, 0). -/
theorem flat_apply (c : Dev nD) (p : Fin 12288) :
    shapeCast S12288 (nArr m c) shapeCasts_S12288x1_S12288 (ix1 p) = nArr m c (ix2 p (0 : Fin 1)) := by
  refine shapeCast_apply _ _ _ _ ?_
  show (S12288x1.rowMajor (ix2 p (0 : Fin 1))).val = (S12288.rowMajor (ix1 p)).val
  rw [Shape.rowMajor_val_two, Shape.rowMajor_val_one]
  show p.val * 1 + 0 = p.val
  omega

end Kernel

/-! ## The scores -/

/-- The score read off three arrays is the specification's score, when the arrays hold the specification's embedding
    and lengths. -/
theorem scoreAt_eq_scoreOf (Z : (⟨2, ![12288, 64]⟩ : Shape).Idx → EReal) (Ncol : (⟨2, ![12288, 1]⟩ : Shape).Idx → EReal)
    (Nrow : (⟨2, ![1, 12288]⟩ : Shape).Idx → EReal)
    (a0 : (⟨2, ![12288, 512]⟩ : Shape).Idx → EReal) (a2 : (⟨2, ![512, 256]⟩ : Shape).Idx → EReal)
    (a3 : (⟨1, ![256]⟩ : Shape).Idx → EReal) (a4 : (⟨2, ![256, 256]⟩ : Shape).Idx → EReal)
    (a5 : (⟨1, ![256]⟩ : Shape).Idx → EReal) (a6 : (⟨2, ![256, 64]⟩ : Shape).Idx → EReal)
    (a7 : (⟨1, ![64]⟩ : Shape).Idx → EReal)
    (hZ : ∀ p k, Z (ix2 p k) = Cert.Spec.embedOf a0 a2 a3 a4 a5 a6 a7 p k)
    (hC : ∀ p, Ncol (ix2 p (0 : Fin 1)) = Cert.Spec.normOf a0 a2 a3 a4 a5 a6 a7 p)
    (hR : ∀ q, Nrow (ix2 (0 : Fin 1) q) = Cert.Spec.normOf a0 a2 a3 a4 a5 a6 a7 q) (p q : Fin 12288) :
    Cert.Spec.scoreAt Z Ncol Nrow p q = Cert.Spec.scoreOf a0 a2 a3 a4 a5 a6 a7 p q := by
  unfold Cert.Spec.scoreAt Cert.Spec.scoreOf Cert.Spec.score
  simp only [hZ, hC, hR]

/-- The reference's score matrix is the kernel program's. -/
theorem score_agree (h : Agrees m m') (c : Dev Cert.ReferenceIdeal.nD) :
    Cert.ReferenceIdeal.Value.res_main_v78 (F := Ideal) m' c = Cert.KernelIdeal.WholeRun.sArr m c := by
  obtain ⟨h0, h1, h2, h3, h4, h5, h6, h7⟩ := h c
  rw [Cert.ReferenceIdeal.Read.val_main_v78_eq, h0, h2, h3, h4, h5, h6, h7]
  funext i
  obtain ⟨p, q, rfl⟩ : ∃ p q, i = ix2 p q := ⟨i 0, i 1, eq_ix2 i⟩
  rw [Cert.ReferenceIdeal.RefValue.sim_apply]
  unfold Cert.KernelIdeal.WholeRun.sArr
  rw [Cert.KernelIdeal.PairsArrays.s_apply (Cert.KernelIdeal.WholeRun.Vin1 m) c p q]
  refine (scoreAt_eq_scoreOf _ _ _ _ _ _ _ _ _ _ (fun p k => ?_) (fun p => ?_) (fun q => ?_) p q).symm
  · show Cert.KernelIdeal.WholeRun.W2 m c Cert.KernelIdeal.main_v0_0 (ix2 p k) = _
    rw [Cert.KernelIdeal.WholeRun.W2_z]; exact zArr_apply m c p k
  · show Cert.KernelIdeal.WholeRun.W2 m c Cert.KernelIdeal.main_v0_1 (ix2 p (0 : Fin 1)) = _
    rw [Cert.KernelIdeal.WholeRun.W2_n]; exact nArr_apply m c p
  · show Cert.KernelIdeal.WholeRun.W2 m c Cert.KernelIdeal.main_v1 (ix2 (0 : Fin 1) q) = _
    rw [W2_row_apply]; exact nArr_apply m c q

/-! ## The edge loss -/

/-- The reference's edge loss is the kernel program's, under the precondition. -/
theorem loss_agree [hf : Cert.Pre_finite_inputs.Facts] (hpre : Cert.Pre_KernelIdeal m) (h : Agrees m m')
    (c : Dev Cert.ReferenceIdeal.nD) :
    Cert.ReferenceIdeal.Value.res_main_v62 (F := Ideal) m' c
      = Cert.KernelIdeal.Gen.V7 m (Cert.KernelIdeal.WholeRun.outs m) c Cert.KernelIdeal.main_v39 := by
  obtain ⟨h0, h1, h2, h3, h4, h5, h6, h7⟩ := h c
  have hr := Cert.IndexRange.of_pre _ _ _ _ _ _ _ _ (hpre c)
  rw [Cert.ReferenceIdeal.Read.val_main_v62_eq, Cert.ReferenceIdeal.LossChain.loss_eq, h0, h1, h2, h3, h4, h5, h6, h7,
    Cert.KernelIdeal.EdgeLoss.V7_main_v39 m (Cert.KernelIdeal.WholeRun.outs m) c hr,
    Cert.KernelIdeal.WholeRun.outs_z, Cert.KernelIdeal.WholeRun.outs_n]
  congr 1
  · funext i
    obtain ⟨p, q, rfl⟩ : ∃ p q, i = ix2 p q := ⟨i 0, i 1, eq_ix2 i⟩
    rw [Cert.ReferenceIdeal.RefValue.z_apply]
    exact (zArr_apply m c p q).symm
  · funext i
    obtain ⟨p, rfl⟩ : ∃ p, i = ix1 p := ⟨i 0, eq_ix1 i⟩
    rw [Cert.ReferenceIdeal.RefValue.nrm_apply, flat_apply]
    exact (nArr_apply m c p).symm

end Cert.Proof.Agree

end
-- ==== Proof.lean ====
/-
  The certificate's claim, assembled.

  The program is a graph auto-encoder: an encoder kernel (three affine layers over 12 row blocks, giving every node an
  embedding row and its Euclidean length), an all-pairs kernel (the logistic of every pair's cosine similarity, tile by
  tile), and host code for the edge-wise reconstruction loss (gathers of the embeddings and lengths at the edges'
  endpoints).  The reference computes the same three things with whole-array operations.

  Frames: each program's @main runs to the end from any memory and leaves its eight arguments as launched — for the two
  kernel programs by the run of @main as its seven items (Launch, and its word-level copy), for the reference by its run
  read back.  The idealization rewrote nothing, so there is nothing to preserve.  Equivalence over the extended reals:
  both score matrices are, entry by entry, the specification's score of the embedded rows (the kernel's tiles cover the
  matrix; sums may be taken in any order and grouping, there is no rounding); the two losses are one and the same chain
  of host operations applied to equal embeddings, equal lengths and the same edge list — equal once every edge endpoint
  names a node, which is the precondition's index-range conjunct: only then does the kernel program's take keep the
  gathered rows rather than its out-of-range fill.
-/
import proofs.«400617_j63574105915522_1_alg».proof.Defs
import proofs.«400617_j63574105915522_1_alg».proof.Proof.Gen.Kernel
import proofs.«400617_j63574105915522_1_alg».proof.Proof.Gen.KernelIdeal
import proofs.«400617_j63574105915522_1_alg».proof.Proof.Gen.ReferenceIdeal
import proofs.«400617_j63574105915522_1_alg».proof.Proof.Gen.ReferenceIdeal.Run
import proofs.«400617_j63574105915522_1_alg».proof.Proof.Gen.ReferenceIdeal.Read
import proofs.«400617_j63574105915522_1_alg».proof.Proof.Gen.Pre_finite_inputs
import proofs.«400617_j63574105915522_1_alg».proof.Proof.BitsLaunch
import proofs.«400617_j63574105915522_1_alg».proof.Proof.Launch
import proofs.«400617_j63574105915522_1_alg».proof.Proof.EdgeLoss
import proofs.«400617_j63574105915522_1_alg».proof.Proof.Agree
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.WholeRun.frame (F := Bits) m ρ

/-- So does the idealized program. -/
theorem frame_kernel_ideal : Cert.frame_KernelIdeal := fun m ρ _ => Cert.KernelIdeal.WholeRun.frame (F := Ideal) m ρ

/-- The reference's run read back, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the score matrix the second launch wrote and the loss the kernel program's host code
    computed; the reference's two results are those (the agreement module), under the precondition's index range. -/
theorem algebraic : Cert.algebraic_KernelIdeal_ReferenceIdeal := by
  intro m ρ m' ρ' hpre hagree
  refine ⟨fun c => Cert.KernelIdeal.WholeRun.sArr m c,
    fun c => Cert.KernelIdeal.Gen.V7 m (Cert.KernelIdeal.WholeRun.outs m) c Cert.KernelIdeal.main_v39, ?_, ?_⟩
  · refine (θ_run Cert.KernelIdeal.defs _ _).mono (fun r h c => ⟨?_, ?_, ?_⟩) (Cert.KernelIdeal.WholeRun.run_all (F := Ideal) m ρ)
    · exact (h c _ (Cert.KernelIdeal.WholeRun.mem_uc Cert.KernelIdeal.main_v2 (by decide))).trans
        ((Cert.KernelIdeal.EdgeLoss.V7_main_v2 m (Cert.KernelIdeal.WholeRun.outs m) c).trans (Cert.KernelIdeal.WholeRun.outs_s m 3 c))
    · exact h c _ (Cert.KernelIdeal.WholeRun.mem_uc Cert.KernelIdeal.main_v39 (by decide))
    · exact ⟨(h c _ (Cert.KernelIdeal.WholeRun.mem_uc Cert.KernelIdeal.main_arg0 (by decide))).trans (Cert.KernelIdeal.Gen.V7_main_arg0 m (Cert.KernelIdeal.WholeRun.outs m) c),
        (h c _ (Cert.KernelIdeal.WholeRun.mem_uc Cert.KernelIdeal.main_arg1 (by decide))).trans (Cert.KernelIdeal.Gen.V7_main_arg1 m (Cert.KernelIdeal.WholeRun.outs m) c),
        (h c _ (Cert.KernelIdeal.WholeRun.mem_uc Cert.KernelIdeal.main_arg2 (by decide))).trans (Cert.KernelIdeal.Gen.V7_main_arg2 m (Cert.KernelIdeal.WholeRun.outs m) c),
        (h c _ (Cert.KernelIdeal.WholeRun.mem_uc Cert.KernelIdeal.main_arg3 (by decide))).trans (Cert.KernelIdeal.Gen.V7_main_arg3 m (Cert.KernelIdeal.WholeRun.outs m) c),
        (h c _ (Cert.KernelIdeal.WholeRun.mem_uc Cert.KernelIdeal.main_arg4 (by decide))).trans (Cert.KernelIdeal.Gen.V7_main_arg4 m (Cert.KernelIdeal.WholeRun.outs m) c),
        (h c _ (Cert.KernelIdeal.WholeRun.mem_uc Cert.KernelIdeal.main_arg5 (by decide))).trans (Cert.KernelIdeal.Gen.V7_main_arg5 m (Cert.KernelIdeal.WholeRun.outs m) c),
        (h c _ (Cert.KernelIdeal.WholeRun.mem_uc Cert.KernelIdeal.main_arg6 (by decide))).trans (Cert.KernelIdeal.Gen.V7_main_arg6 m (Cert.KernelIdeal.WholeRun.outs m) c),
        (h c _ (Cert.KernelIdeal.WholeRun.mem_uc Cert.KernelIdeal.main_arg7 (by decide))).trans (Cert.KernelIdeal.Gen.V7_main_arg7 m (Cert.KernelIdeal.WholeRun.outs m) c)⟩
  · exact (θ_run Cert.ReferenceIdeal.defs _ _).mono
      (fun r h c => ⟨(h c).1.trans (Cert.Proof.Agree.score_agree m m' hagree c),
        (h c).2.1.trans (Cert.Proof.Agree.loss_agree m m' hpre hagree c), (h c).2.2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
